-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v33 : IVec S_ 1) : IVec S_ 1 :=
  let main_v34 : IVec S1x600000 32 := (extractStridedSlice S1x600000 ![0, 0] · slices_S2x600000_S1x600000_0_0) main_arg1
  let main_v35 : IVec S600000 32 := shapeCast S600000 main_v34 shapeCasts_S1x600000_S600000
  let main_c_12 : IVec S_ 32 := constantI S_ 32 4294917296#32
  let main_v36 : IVec S600000 32 := broadcastInDim S600000 ![] bcast_S_S600000 main_c_12
  let main_v37 : IVec S600000 1 := cmpi .sge main_v35 main_v36
  let main_c_13 : IVec S_ 1 := constantI S_ 1 1#1
  let main_v38 : IVec S_ 1 := (fun x v => Host.reduce IntOp.andi x v reducesTo_S600000_S_d0 h_S_) main_v37 main_c_13
  let main_v39 : IVec S_ 1 := andi main_v33 main_v38
  let main_v40 : IVec S1x600000 32 := (extractStridedSlice S1x600000 ![0, 0] · slices_S2x600000_S1x600000_0_0) main_arg1
  let main_v41 : IVec S600000 32 := shapeCast S600000 main_v40 shapeCasts_S1x600000_S600000
  let main_c_14 : IVec S_ 32 := constantI S_ 32 50000#32
  let main_v42 : IVec S600000 32 := broadcastInDim S600000 ![] bcast_S_S600000 main_c_14
  let main_v43 : IVec S600000 1 := cmpi .slt main_v41 main_v42
  let main_c_15 : IVec S_ 1 := constantI S_ 1 1#1
  let main_v44 : IVec S_ 1 := (fun x v => Host.reduce IntOp.andi x v reducesTo_S600000_S_d0 h_S_) main_v43 main_c_15
  let main_v45 : IVec S_ 1 := andi main_v39 main_v44
  main_v45

def fn_part1 {F : FTy → Type} [FloatOps F] (main_arg1 : IVec S2x600000 32) (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S1x128 : Shape := ⟨2, ![1, 128]⟩
abbrev S5000x128 : Shape := ⟨2, ![5000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 130
  | .vmem => 30
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x600000, .i32⟩
  | 9 => ⟨S600000, .i32⟩
  | 10 => ⟨S1x600000, .i32⟩
  | 11 => ⟨S600000, .i32⟩
  | 12 => ⟨S1x128, .f32⟩
  | 13 => ⟨S50000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S1, .i32⟩
  | 23 => ⟨S_, .i32⟩
  | 24 => ⟨S600000x1, .i32⟩
  | 25 => ⟨S600000x1, .i1⟩
  | 26 => ⟨S1x1, .i32⟩
  | 27 => ⟨S600000x1, .i32⟩
  | 28 => ⟨S600000x1, .i1⟩
  | 29 => ⟨S600000x1, .i1⟩
  | 30 => ⟨S_, .i1⟩
  | 31 => ⟨S600000, .i1⟩
  | 32 => ⟨S600000x128, .f32⟩
  | 33 => ⟨S600000x128, .i1⟩
  | 34 => ⟨S_, .f32⟩
  | 35 => ⟨S600000x128, .f32⟩
  | 36 => ⟨S600000x128, .f32⟩
  | 37 => ⟨S_, .f32⟩
  | 38 => ⟨S50000x128, .f32⟩
  | 39 => ⟨S600000x1, .i32⟩
  | 40 => ⟨S50000x128, .f32⟩
  | 41 => ⟨S1x128, .f32⟩
  | 42 => ⟨S50000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S1, .i32⟩
  | 52 => ⟨S_, .i32⟩
  | 53 => ⟨S600000x1, .i32⟩
  | 54 => ⟨S600000x1, .i1⟩
  | 55 => ⟨S1x1, .i32⟩
  | 56 => ⟨S600000x1, .i32⟩
  | 57 => ⟨S600000x1, .i1⟩
  | 58 => ⟨S600000x1, .i1⟩
  | 59 => ⟨S_, .i1⟩
  | 60 => ⟨S600000, .i1⟩
  | 61 => ⟨S600000x128, .f32⟩
  | 62 => ⟨S600000x128, .i1⟩
  | 63 => ⟨S_, .f32⟩
  | 64 => ⟨S600000x128, .f32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S1x128, .f32⟩
  | 71 => ⟨S50000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S1, .i32⟩
  | 81 => ⟨S_, .i32⟩
  | 82 => ⟨S600000x1, .i32⟩
  | 83 => ⟨S600000x1, .i1⟩
  | 84 => ⟨S1x1, .i32⟩
  | 85 => ⟨S600000x1, .i32⟩
  | 86 => ⟨S600000x1, .i1⟩
  | 87 => ⟨S600000x1, .i1⟩
  | 88 => ⟨S_, .i1⟩
  | 89 => ⟨S600000, .i1⟩
  | 90 => ⟨S600000x128, .f32⟩
  | 91 => ⟨S600000x128, .i1⟩
  | 92 => ⟨S_, .f32⟩
  | 93 => ⟨S600000x128, .f32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S1x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S1, .i32⟩
  | 110 => ⟨S_, .i32⟩
  | 111 => ⟨S600000x1, .i32⟩
  | 112 => ⟨S600000x1, .i1⟩
  | 113 => ⟨S1x1, .i32⟩
  | 114 => ⟨S600000x1, .i32⟩
  | 115 => ⟨S600000x1, .i1⟩
  | 116 => ⟨S600000x1, .i1⟩
  | 117 => ⟨S_, .i1⟩
  | 118 => ⟨S600000, .i1⟩
  | 119 => ⟨S600000x128, .f32⟩
  | 120 => ⟨S600000x128, .i1⟩
  | 121 => ⟨S_, .f32⟩
  | 122 => ⟨S600000x128, .f32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x128, .f32⟩

abbrev hbmTy0_1 (i : Nat) : BufTy := match i % 128 with
  | 0 => ⟨S1x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v18 : Ref sig .tc := ⟨.hbm, 94, rfl⟩
abbrev main_cst_1 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v24 : Ref sig .tc := ⟨.hbm, 123, rfl⟩
abbrev main_cst_2 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v21) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x64 : Shape := ⟨2, ![50000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Pool.lean ====
/-
  The mathematics both programs compute, with no program in sight.

  A LINEAR LAYER sends a matrix `X` with 128 columns to `X · W + b`: entry `(r, j)` is the sum over `k` of
  `X (r, k) · W (k, j)`, plus `b j`. It is ROW-LOCAL: row `r` of the result depends on row `r` of `X` only, so the
  layer of a block of rows is that block of the layer of the whole matrix. The POSITIVE PART replaces every entry by
  its maximum with zero. Both are stated on the extended reals, index by index, for any number of rows `n` and of
  output columns `c`; sums of extended reals commute and associate, which is all that is used of them.
-/
import Idealize.ShloMosaic.PureOps.Ideal
import Idealize.ShloMosaic.Lib.ValueIdx

noncomputable section

namespace Cert.Pool

open Idealize.ShloMosaic

/-- Row `i 0`, column `k`, in a matrix with 128 columns: where the left factor of term `k` sits. -/
abbrev atRow {n c : Nat} (i : (⟨2, ![n, c]⟩ : Shape).Idx) (k : Fin 128) : (⟨2, ![n, 128]⟩ : Shape).Idx := fun a => match a with
  | ⟨0, _⟩ => ⟨(i 0).val, (i 0).isLt⟩
  | ⟨1, _⟩ => ⟨k.val, k.isLt⟩

/-- Row `k`, column `i 1`, in a matrix with 128 rows: where the right factor of term `k` sits. -/
abbrev atCol {n c : Nat} (i : (⟨2, ![n, c]⟩ : Shape).Idx) (k : Fin 128) : (⟨2, ![128, c]⟩ : Shape).Idx := fun a => match a with
  | ⟨0, _⟩ => ⟨k.val, k.isLt⟩
  | ⟨1, _⟩ => ⟨(i 1).val, (i 1).isLt⟩

/-- Entry `i 1` of a vector as long as a row of `i`'s matrix: where the bias of column `i 1` sits. -/
abbrev atBias {n c : Nat} (i : (⟨2, ![n, c]⟩ : Shape).Idx) : (⟨1, ![c]⟩ : Shape).Idx := fun a => match a with
  | ⟨0, _⟩ => ⟨(i 1).val, (i 1).isLt⟩

/-- The linear layer `X · W + b`, entry by entry. -/
def linear {n c : Nat} (X : (⟨2, ![n, 128]⟩ : Shape).Idx → EReal) (W : (⟨2, ![128, c]⟩ : Shape).Idx → EReal)
    (b : (⟨1, ![c]⟩ : Shape).Idx → EReal) : (⟨2, ![n, c]⟩ : Shape).Idx → EReal :=
  fun i => (∑ k : Fin 128, X (atRow i k) * W (atCol i k)) + b (atBias i)

/-- The positive part, entry by entry. -/
def positivePart {s : Shape} (X : s.Idx → EReal) : s.Idx → EReal := fun i => max (X i) 0

end Cert.Pool

end
-- ==== Proof.BodyLinear.lean ====
/-
  What each kernel body stores, as mathematics. A body loads a block of 5000 rows of its input matrix, the whole
  weight matrix and the bias as one row; it multiplies the block by the weights into a zero accumulator (the change of
  float format before the product is the identity on the extended reals), adds the bias row to every row, and stores
  the block. So the stored block is the linear layer of the loaded block: entry `(r, j)` is the sum over `k` of
  `x (r, k) · w (k, j)` plus `b (0, j)`. The third and the last body first take the positive part of the loaded block.
-/
import proofs.«422275_j50749333569685_1_alg».proof.Proof.Gen.KernelIdeal.Skeleton
import proofs.«422275_j50749333569685_1_alg».proof.Proof.Pool
import Idealize.ShloMosaic.Lib.ValueIdx
import Idealize.ShloMosaic.Lib.Pipeline.Value
import Idealize.ShloMosaic.PureOps.Ideal.Laws

noncomputable section

namespace Cert.KernelIdeal.BodyLinear

open Cert.KernelIdeal Cert.KernelIdeal.Gen Idealize.ShloMosaic Idealize.ShloMosaic.TcCoe

theorem lhs_wide_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_wide_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_wide_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_wide_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at an entry: the sum over `k` of the row's entry `k` times the
    column's entry `k`. -/
theorem product_wide (x : FVec Ideal S5000x128 .bf16) (w : FVec Ideal S128x128 .bf16) (i : S5000x128.Idx) :
    matmul dot_S5000x128_S128x128_S5000x128_1_0_0_1_n_n none x w (constant S5000x128 .f32 0x00000000#32) i
      = ∑ k : Fin 128, x (Cert.Pool.atRow i k) * w (Cert.Pool.atCol i k) := by
  show FloatOps.matmul dot_S5000x128_S128x128_S5000x128_1_0_0_1_n_n none x w (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = Cert.Pool.atRow i k := funext fun a => Fin.ext (by
    match a with
    | ⟨0, _⟩ => exact lhs_wide_0 _ _
    | ⟨1, _⟩ => exact (lhs_wide_1 _ _).trans hk)
  have er : dot_S5000x128_S128x128_S5000x128_1_0_0_1_n_n.rhsIdx i ((ValueIdx.contrEquiv1 dot_S5000x128_S128x128_S5000x128_1_0_0_1_n_n 128 rfl rfl).symm k) = Cert.Pool.atCol i k := funext fun a => Fin.ext (by
    match a with
    | ⟨0, _⟩ => exact (rhs_wide_0 _ _).trans hk
    | ⟨1, _⟩ => exact rhs_wide_1 _ _)
  rw [el, er]

theorem lhs_narrow_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_narrow_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_narrow_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_narrow_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matrix product into a zero accumulator, at an entry: the sum over `k` of the row's entry `k` times the
    column's entry `k`. -/
theorem product_narrow (x : FVec Ideal S5000x128 .bf16) (w : FVec Ideal S128x64 .bf16) (i : S5000x64.Idx) :
    matmul dot_S5000x128_S128x64_S5000x64_1_0_0_1_n_n none x w (constant S5000x64 .f32 0x00000000#32) i
      = ∑ k : Fin 128, x (Cert.Pool.atRow i k) * w (Cert.Pool.atCol i k) := by
  show FloatOps.matmul dot_S5000x128_S128x64_S5000x64_1_0_0_1_n_n none x w (constant S5000x64 .f32 0x00000000#32) i = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = Cert.Pool.atRow i k := funext fun a => Fin.ext (by
    match a with
    | ⟨0, _⟩ => exact lhs_narrow_0 _ _
    | ⟨1, _⟩ => exact (lhs_narrow_1 _ _).trans hk)
  have er : dot_S5000x128_S128x64_S5000x64_1_0_0_1_n_n.rhsIdx i ((ValueIdx.contrEquiv1 dot_S5000x128_S128x64_S5000x64_1_0_0_1_n_n 128 rfl rfl).symm k) = Cert.Pool.atCol i k := funext fun a => Fin.ext (by
    match a with
    | ⟨0, _⟩ => exact (rhs_narrow_0 _ _).trans hk
    | ⟨1, _⟩ => exact rhs_narrow_1 _ _)
  rw [el, er]

/-- The one row of a bias held as a `1 × c` matrix. -/
abbrev biasRow {c : Nat} (j : (⟨1, ![c]⟩ : Shape).Idx) : (⟨2, ![1, c]⟩ : Shape).Idx := fun a => match a with
  | ⟨0, _⟩ => ⟨0, Nat.one_pos⟩
  | ⟨1, _⟩ => ⟨(j 0).val, (j 0).isLt⟩

/-- The bias row spread over 5000 rows, at an entry: the row's entry in that column. -/
theorem spread_wide (b : FVec Ideal S1x128 .f32) (i : S5000x128.Idx) :
    broadcastTo S5000x128 (shapeCast S1x128 b shapeCasts_S1x128_S1x128) broadcasts_S1x128_S5000x128 i = b (biasRow (Cert.Pool.atBias i)) := by
  rw [shapeCast_self]
  exact broadcastTo_apply b broadcasts_S1x128_S5000x128 i (biasRow (Cert.Pool.atBias i)) (fun a => match a with
    | ⟨0, _⟩ => by show 0 = if (1 : Nat) = 1 then 0 else _; rw [if_pos rfl]
    | ⟨1, _⟩ => by show (i 1).val = if (128 : Nat) = 1 then 0 else (i 1).val; rw [if_neg (by decide)])

theorem spread_narrow (b : FVec Ideal S1x64 .f32) (i : S5000x64.Idx) :
    broadcastTo S5000x64 (shapeCast S1x64 b shapeCasts_S1x64_S1x64) broadcasts_S1x64_S5000x64 i = b (biasRow (Cert.Pool.atBias i)) := by
  rw [shapeCast_self]
  exact broadcastTo_apply b broadcasts_S1x64_S5000x64 i (biasRow (Cert.Pool.atBias i)) (fun a => match a with
    | ⟨0, _⟩ => by show 0 = if (1 : Nat) = 1 then 0 else _; rw [if_pos rfl]
    | ⟨1, _⟩ => by show (i 1).val = if (64 : Nat) = 1 then 0 else (i 1).val; rw [if_neg (by decide)])

/-- The first body stores the linear layer of its block. -/
theorem stored0 (x : Vec Ideal S5000x128 .f32) (w : Vec Ideal S128x128 .f32) (b : Vec Ideal S1x128 .f32) :
    k0_pay1 (F := Ideal) x w b = Cert.Pool.linear x w (fun j => b (biasRow j)) := by
  funext i
  unfold k0_pay1
  show (matmul (F := Ideal) dot_S5000x128_S128x128_S5000x128_1_0_0_1_n_n none (truncf (F := Ideal) .bf16 x bitsLt_bf16_f32) (truncf (F := Ideal) .bf16 w bitsLt_bf16_f32) (constant (F := Ideal) S5000x128 .f32 0x00000000#32) i)
      + (broadcastTo S5000x128 (shapeCast S1x128 b shapeCasts_S1x128_S1x128) broadcasts_S1x128_S5000x128 i) = _
  rw [product_wide, spread_wide]
  rfl

/-- So does the second. -/
theorem stored1 (x : Vec Ideal S5000x128 .f32) (w : Vec Ideal S128x128 .f32) (b : Vec Ideal S1x128 .f32) :
    k1_pay1 (F := Ideal) x w b = Cert.Pool.linear x w (fun j => b (biasRow j)) := by
  funext i
  unfold k1_pay1
  show (matmul (F := Ideal) dot_S5000x128_S128x128_S5000x128_1_0_0_1_n_n none (truncf (F := Ideal) .bf16 (shapeCast S5000x128 x shapeCasts_S5000x128_S5000x128) bitsLt_bf16_f32) (truncf (F := Ideal) .bf16 w bitsLt_bf16_f32) (constant (F := Ideal) S5000x128 .f32 0x00000000#32) i)
      + (broadcastTo S5000x128 (shapeCast S1x128 b shapeCasts_S1x128_S1x128) broadcasts_S1x128_S5000x128 i) = _
  rw [product_wide, spread_wide]
  simp only [shapeCast_self]
  rfl

/-- The third stores the linear layer of the positive part of its block. -/
theorem stored2 (x : Vec Ideal S5000x128 .f32) (w : Vec Ideal S128x128 .f32) (b : Vec Ideal S1x128 .f32) :
    k2_pay1 (F := Ideal) x w b = Cert.Pool.linear (Cert.Pool.positivePart x) w (fun j => b (biasRow j)) := by
  funext i
  unfold k2_pay1
  show (matmul (F := Ideal) dot_S5000x128_S128x128_S5000x128_1_0_0_1_n_n none (truncf (F := Ideal) .bf16 (maximumf (F := Ideal) (shapeCast S5000x128 x shapeCasts_S5000x128_S5000x128) (broadcast S5000x128 (Scalar.ofBits (F := Ideal) .f32 0x00000000#32))) bitsLt_bf16_f32) (truncf (F := Ideal) .bf16 w bitsLt_bf16_f32) (constant (F := Ideal) S5000x128 .f32 0x00000000#32) i)
      + (broadcastTo S5000x128 (shapeCast S1x128 b shapeCasts_S1x128_S1x128) broadcasts_S1x128_S5000x128 i) = _
  rw [product_wide, spread_wide]
  simp only [shapeCast_self]
  unfold Cert.Pool.linear Cert.Pool.positivePart
  refine congrArg (· + _) (Finset.sum_congr rfl fun k _ => ?_)
  show max (x (Cert.Pool.atRow i k)) (Ideal.ofBits .f32 0x00000000#32) * _ = _
  rw [Ideal.ofBits_zero_f32]
  rfl

/-- The fourth stores the linear layer of its block. -/
theorem stored3 (x : Vec Ideal S5000x128 .f32) (w : Vec Ideal S128x128 .f32) (b : Vec Ideal S1x128 .f32) :
    k3_pay1 (F := Ideal) x w b = Cert.Pool.linear x w (fun j => b (biasRow j)) := by
  funext i
  unfold k3_pay1
  show (matmul (F := Ideal) dot_S5000x128_S128x128_S5000x128_1_0_0_1_n_n none (truncf (F := Ideal) .bf16 (shapeCast S5000x128 x shapeCasts_S5000x128_S5000x128) bitsLt_bf16_f32) (truncf (F := Ideal) .bf16 w bitsLt_bf16_f32) (constant (F := Ideal) S5000x128 .f32 0x00000000#32) i)
      + (broadcastTo S5000x128 (shapeCast S1x128 b shapeCasts_S1x128_S1x128) broadcasts_S1x128_S5000x128 i) = _
  rw [product_wide, spread_wide]
  simp only [shapeCast_self]
  rfl

/-- The last stores the linear layer, into 64 columns, of the positive part of its block. -/
theorem stored4 (x : Vec Ideal S5000x128 .f32) (w : Vec Ideal S128x64 .f32) (b : Vec Ideal S1x64 .f32) :
    k4_pay1 (F := Ideal) x w b = Cert.Pool.linear (Cert.Pool.positivePart x) w (fun j => b (biasRow j)) := by
  funext i
  unfold k4_pay1
  show (matmul (F := Ideal) dot_S5000x128_S128x64_S5000x64_1_0_0_1_n_n none (truncf (F := Ideal) .bf16 (maximumf (F := Ideal) (shapeCast S5000x128 x shapeCasts_S5000x128_S5000x128) (broadcast S5000x128 (Scalar.ofBits (F := Ideal) .f32 0x00000000#32))) bitsLt_bf16_f32) (truncf (F := Ideal) .bf16 w bitsLt_bf16_f32) (constant (F := Ideal) S5000x64 .f32 0x00000000#32) i)
      + (broadcastTo S5000x64 (shapeCast S1x64 b shapeCasts_S1x64_S1x64) broadcasts_S1x64_S5000x64 i) = _
  rw [product_narrow, spread_narrow]
  simp only [shapeCast_self]
  unfold Cert.Pool.linear Cert.Pool.positivePart
  refine congrArg (· + _) (Finset.sum_congr rfl fun k _ => ?_)
  show max (x (Cert.Pool.atRow i k)) (Ideal.ofBits .f32 0x00000000#32) * _ = _
  rw [Ideal.ofBits_zero_f32]
  rfl

end Cert.KernelIdeal.BodyLinear

end
-- ==== Proof.Region0.lean ====
/-
  The array the first pallas_call leaves.

  The call walks ten grid points. At point `t` it stages rows `5000·t … 5000·t + 4999` of its input matrix, the whole
  weight matrix and the bias row, and writes back the block its body stores: the linear layer of the staged
  rows. The linear layer is row-local, so that block is rows `5000·t …` of the linear layer of the WHOLE input
  matrix; the ten blocks tile the 50000 rows; so the array ends as that linear layer, entry by entry.
-/
import proofs.«422275_j50749333569685_1_alg».proof.Proof.Gen.KernelIdeal.Frame
import proofs.«422275_j50749333569685_1_alg».proof.Proof.BodyLinear
import Idealize.ShloMosaic.Lib.Pipeline.Value

set_option maxRecDepth 16384

noncomputable section

namespace Cert.KernelIdeal.Region0

open Cert.KernelIdeal Cert.KernelIdeal.Gen Cert.KernelIdeal.BodyLinear Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The input matrix, the weights and the bias row as the region finds them, and the array it ends with. -/
abbrev rowsIn (c : Dev nD) : S50000x128.Idx → EReal := V c main_arg0
abbrev weights (c : Dev nD) : S128x128.Idx → EReal := V c main_arg2
abbrev biasIn (c : Dev nD) : S1x128.Idx → EReal := V c main_v4

/-- The whole-array function the region computes. -/
abbrev layer (c : Dev nD) : S50000x128.Idx → EReal :=
  Cert.Pool.linear (rowsIn V c) (weights V c) (fun j => biasIn V c (biasRow j))

/-- The printed index maps, decided over the ten grid points: the input and the output block move together down the
    rows; the weights and the bias stay put. -/
theorem grid_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block of rows is some point's. -/
theorem grid_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the layer of the whole input. -/
theorem flushed (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero origin]
  simp only [View.ld_unit_zero (S := S5000x128) origin, View.ld_unit_zero (S := S5000x128) origin, View.ld_unit_zero (S := S128x128) origin, View.ld_unit_zero (S := S1x128) origin]
  rw [stored0]
  obtain ⟨e0, e1, e2, e3, e4, e5, e6, e7⟩ := grid_facts t
  funext j
  have hj0 : (j 0).val < 5000 := (j 0).isLt
  have hj1 : (j 1).val < 128 := (j 1).isLt
  have hrow : ∀ k : Fin 128, ((cfg0.win 0).blk t).view.emb (Cert.Pool.atRow j k) = Cert.Pool.atRow (((cfg0.win 3).blk t).view.emb j) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have hcol : ∀ k : Fin 128, ((cfg0.win 1).blk t).view.emb (Cert.Pool.atCol j k) = Cert.Pool.atCol (((cfg0.win 3).blk t).view.emb j) k := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hbias : ((cfg0.win 2).blk t).view.emb (biasRow (Cert.Pool.atBias j)) = biasRow (Cert.Pool.atBias (((cfg0.win 3).blk t).view.emb j)) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  show (∑ k : Fin 128, rowsIn V c (((cfg0.win 0).blk t).view.emb (Cert.Pool.atRow j k)) * weights V c (((cfg0.win 1).blk t).view.emb (Cert.Pool.atCol j k)))
      + biasIn V c (((cfg0.win 2).blk t).view.emb (biasRow (Cert.Pool.atBias j)))
    = (∑ k : Fin 128, rowsIn V c (Cert.Pool.atRow (((cfg0.win 3).blk t).view.emb j) k) * weights V c (Cert.Pool.atCol (((cfg0.win 3).blk t).view.emb j) k))
      + biasIn V c (biasRow (Cert.Pool.atBias (((cfg0.win 3).blk t).view.emb j)))
  rw [hbias]
  exact congrArg (· + _) (Finset.sum_congr rfl fun k _ => by rw [hrow k, hcol k])

/-- An entry is in point `t`'s block iff each coordinate is in the block's range. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- The ten blocks tile the array. -/
theorem tiled (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := grid_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY the region leaves: the layer of the whole input, entry by entry. -/
theorem array (c : Dev nD) : (dat0 V c).arrAt 3 cfg0.N = layer V c :=
  (dat0 V c).arrAt_eq_of_cover 3 (layer V c) (fun t _ => flushed V c t) (tiled)

end Cert.KernelIdeal.Region0

end
-- ==== Proof.Region1.lean ====
/-
  The array the second pallas_call leaves.

  The call walks ten grid points. At point `t` it stages rows `5000·t … 5000·t + 4999` of its input matrix, the whole
  weight matrix and the bias row, and writes back the block its body stores: the linear layer of the staged
  rows. The linear layer is row-local, so that block is rows `5000·t …` of the linear layer of the WHOLE input
  matrix; the ten blocks tile the 50000 rows; so the array ends as that linear layer, entry by entry.
-/
import proofs.«422275_j50749333569685_1_alg».proof.Proof.Gen.KernelIdeal.Frame
import proofs.«422275_j50749333569685_1_alg».proof.Proof.BodyLinear
import Idealize.ShloMosaic.Lib.Pipeline.Value

set_option maxRecDepth 16384

noncomputable section

namespace Cert.KernelIdeal.Region1

open Cert.KernelIdeal Cert.KernelIdeal.Gen Cert.KernelIdeal.BodyLinear Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The input matrix, the weights and the bias row as the region finds them, and the array it ends with. -/
abbrev rowsIn (c : Dev nD) : S50000x128.Idx → EReal := V c main_v9
abbrev weights (c : Dev nD) : S128x128.Idx → EReal := V c main_arg2
abbrev biasIn (c : Dev nD) : S1x128.Idx → EReal := V c main_v10

/-- The whole-array function the region computes. -/
abbrev layer (c : Dev nD) : S50000x128.Idx → EReal :=
  Cert.Pool.linear (rowsIn V c) (weights V c) (fun j => biasIn V c (biasRow j))

/-- The printed index maps, decided over the ten grid points: the input and the output block move together down the
    rows; the weights and the bias stay put. -/
theorem grid_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem grid_onto : ∀ q : Fin 10, ∃ t : Fin cfg1.N, win1_3.index t = ![q.val, 0] :=
  (by decide +kernel : ∀ q : Fin 10, ∃ t : Fin grid1.N, win1_3.index t = ![q.val, 0])

/-- What point `t` writes back is block `t` of the layer of the whole input. -/
theorem flushed (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x128) origin, View.ld_unit_zero (S := S128x128) origin, View.ld_unit_zero (S := S1x128) origin]
  rw [stored1]
  obtain ⟨e0, e1, e2, e3, e4, e5, e6, e7⟩ := grid_facts t
  funext j
  have hj0 : (j 0).val < 5000 := (j 0).isLt
  have hj1 : (j 1).val < 128 := (j 1).isLt
  have hrow : ∀ k : Fin 128, ((cfg1.win 0).blk t).view.emb (Cert.Pool.atRow j k) = Cert.Pool.atRow (((cfg1.win 3).blk t).view.emb j) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have hcol : ∀ k : Fin 128, ((cfg1.win 1).blk t).view.emb (Cert.Pool.atCol j k) = Cert.Pool.atCol (((cfg1.win 3).blk t).view.emb j) k := fun k => by
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have hbias : ((cfg1.win 2).blk t).view.emb (biasRow (Cert.Pool.atBias j)) = biasRow (Cert.Pool.atBias (((cfg1.win 3).blk t).view.emb j)) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  show (∑ k : Fin 128, rowsIn V c (((cfg1.win 0).blk t).view.emb (Cert.Pool.atRow j k)) * weights V c (((cfg1.win 1).blk t).view.emb (Cert.Pool.atCol j k)))
      + biasIn V c (((cfg1.win 2).blk t).view.emb (biasRow (Cert.Pool.atBias j)))
    = (∑ k : Fin 128, rowsIn V c (Cert.Pool.atRow (((cfg1.win 3).blk t).view.emb j) k) * weights V c (Cert.Pool.atCol (((cfg1.win 3).blk t).view.emb j) k))
      + biasIn V c (biasRow (Cert.Pool.atBias (((cfg1.win 3).blk t).view.emb j)))
  rw [hbias]
  exact congrArg (· + _) (Finset.sum_congr rfl fun k _ => by rw [hrow k, hcol k])

/-- An entry is in point `t`'s block iff each coordinate is in the block's range. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v11).slice (win1_3.rect t)).set ↔ _
  rw [View.set_slice_whole, Rect.mem_set_unit]
  exact Iff.rfl

/-- The ten blocks tile the array. -/
theorem tiled (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := grid_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY the region leaves: the layer of the whole input, entry by entry. -/
theorem array (c : Dev nD) : (dat1 V c).arrAt 3 cfg1.N = layer V c :=
  (dat1 V c).arrAt_eq_of_cover 3 (layer V c) (fun t _ => flushed V c t) (tiled)

end Cert.KernelIdeal.Region1

end
-- ==== Proof.Region2.lean ====
/-
  The array the third pallas_call leaves.

  The call walks ten grid points. At point `t` it stages rows `5000·t … 5000·t + 4999` of its input matrix, the whole
  weight matrix and the bias row, and writes back the block its body stores: the linear layer of the staged
  rows after their positive part. The linear layer is row-local, so that block is rows `5000·t …` of the linear layer of the WHOLE input
  matrix's positive part; the ten blocks tile the 50000 rows; so the array ends as that linear layer, entry by entry.
-/
import proofs.«422275_j50749333569685_1_alg».proof.Proof.Gen.KernelIdeal.Frame
import proofs.«422275_j50749333569685_1_alg».proof.Proof.BodyLinear
import Idealize.ShloMosaic.Lib.Pipeline.Value

set_option maxRecDepth 16384

noncomputable section

namespace Cert.KernelIdeal.Region2

open Cert.KernelIdeal Cert.KernelIdeal.Gen Cert.KernelIdeal.BodyLinear Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The input matrix, the weights and the bias row as the region finds them, and the array it ends with. -/
abbrev rowsIn (c : Dev nD) : S50000x128.Idx → EReal := V c main_v15
abbrev weights (c : Dev nD) : S128x128.Idx → EReal := V c main_arg4
abbrev biasIn (c : Dev nD) : S1x128.Idx → EReal := V c main_v16

/-- The whole-array function the region computes. -/
abbrev layer (c : Dev nD) : S50000x128.Idx → EReal :=
  Cert.Pool.linear (Cert.Pool.positivePart (rowsIn V c)) (weights V c) (fun j => biasIn V c (biasRow j))

/-- The printed index maps, decided over the ten grid points: the input and the output block move together down the
    rows; the weights and the bias stay put. -/
theorem grid_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block of rows is some point's. -/
theorem grid_onto : ∀ q : Fin 10, ∃ t : Fin cfg2.N, win2_3.index t = ![q.val, 0] :=
  (by decide +kernel : ∀ q : Fin 10, ∃ t : Fin grid2.N, win2_3.index t = ![q.val, 0])

/-- What point `t` writes back is block `t` of the layer of the whole input. -/
theorem flushed (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero origin]
  simp only [View.ld_unit_zero (S := S5000x128) origin, View.ld_unit_zero (S := S5000x128) origin, View.ld_unit_zero (S := S128x128) origin, View.ld_unit_zero (S := S1x128) origin]
  rw [stored2]
  obtain ⟨e0, e1, e2, e3, e4, e5, e6, e7⟩ := grid_facts t
  funext j
  have hj0 : (j 0).val < 5000 := (j 0).isLt
  have hj1 : (j 1).val < 128 := (j 1).isLt
  have hrow : ∀ k : Fin 128, ((cfg2.win 0).blk t).view.emb (Cert.Pool.atRow j k) = Cert.Pool.atRow (((cfg2.win 3).blk t).view.emb j) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hcol : ∀ k : Fin 128, ((cfg2.win 1).blk t).view.emb (Cert.Pool.atCol j k) = Cert.Pool.atCol (((cfg2.win 3).blk t).view.emb j) k := fun k => by
    funext a; apply Fin.ext
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  have hbias : ((cfg2.win 2).blk t).view.emb (biasRow (Cert.Pool.atBias j)) = biasRow (Cert.Pool.atBias (((cfg2.win 3).blk t).view.emb j)) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  show (∑ k : Fin 128, max (rowsIn V c (((cfg2.win 0).blk t).view.emb (Cert.Pool.atRow j k))) 0 * weights V c (((cfg2.win 1).blk t).view.emb (Cert.Pool.atCol j k)))
      + biasIn V c (((cfg2.win 2).blk t).view.emb (biasRow (Cert.Pool.atBias j)))
    = (∑ k : Fin 128, max (rowsIn V c (Cert.Pool.atRow (((cfg2.win 3).blk t).view.emb j) k)) 0 * weights V c (Cert.Pool.atCol (((cfg2.win 3).blk t).view.emb j) k))
      + biasIn V c (biasRow (Cert.Pool.atBias (((cfg2.win 3).blk t).view.emb j)))
  rw [hbias]
  exact congrArg (· + _) (Finset.sum_congr rfl fun k _ => by rw [hrow k, hcol k])

/-- An entry is in point `t`'s block iff each coordinate is in the block's range. -/
theorem mem_block (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v17).slice (win2_3.rect t)).set ↔ _
  rw [View.set_slice_whole, Rect.mem_set_unit]
  exact Iff.rfl

/-- The ten blocks tile the array. -/
theorem tiled (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := grid_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE ARRAY the region leaves: the layer of the whole input, entry by entry. -/
theorem array (c : Dev nD) : (dat2 V c).arrAt 3 cfg2.N = layer V c :=
  (dat2 V c).arrAt_eq_of_cover 3 (layer V c) (fun t _ => flushed V c t) (tiled)

end Cert.KernelIdeal.Region2

end
-- ==== Proof.Region3.lean ====
/-
  The array the fourth pallas_call leaves.

  The call walks ten grid points. At point `t` it stages rows `5000·t … 5000·t + 4999` of its input matrix, the whole
  weight matrix and the bias row, and writes back the block its body stores: the linear layer of the staged
  rows. The linear layer is row-local, so that block is rows `5000·t …` of the linear layer of the WHOLE input
  matrix; the ten blocks tile the 50000 rows; so the array ends as that linear layer, entry by entry.
-/
import proofs.«422275_j50749333569685_1_alg».proof.Proof.Gen.KernelIdeal.Frame
import proofs.«422275_j50749333569685_1_alg».proof.Proof.BodyLinear
import Idealize.ShloMosaic.Lib.Pipeline.Value

set_option maxRecDepth 16384

noncomputable section

namespace Cert.KernelIdeal.Region3

open Cert.KernelIdeal Cert.KernelIdeal.Gen Cert.KernelIdeal.BodyLinear Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The input matrix, the weights and the bias row as the region finds them, and the array it ends with. -/
abbrev rowsIn (c : Dev nD) : S50000x128.Idx → EReal := V c main_v21
abbrev weights (c : Dev nD) : S128x128.Idx → EReal := V c main_arg4
abbrev biasIn (c : Dev nD) : S1x128.Idx → EReal := V c main_v22

/-- The whole-array function the region computes. -/
abbrev layer (c : Dev nD) : S50000x128.Idx → EReal :=
  Cert.Pool.linear (rowsIn V c) (weights V c) (fun j => biasIn V c (biasRow j))

/-- The printed index maps, decided over the ten grid points: the input and the output block move together down the
    rows; the weights and the bias stay put. -/
theorem grid_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every block of rows is some point's. -/
theorem grid_onto : ∀ q : Fin 10, ∃ t : Fin cfg3.N, win3_3.index t = ![q.val, 0] :=
  (by decide +kernel : ∀ q : Fin 10, ∃ t : Fin grid3.N, win3_3.index t = ![q.val, 0])

/-- What point `t` writes back is block `t` of the layer of the whole input. -/
theorem flushed (c : Dev nD) (t : Fin cfg3.N) :
    (dat3 V c).flushed 3 t = ((cfg3.win 3).blk t).view.read (Elt Ideal) (layer V c) := by
  show (cfg3.win 3).cut (grid3.coords t) ((dat3 V c).after 3 t) = _
  rw [after3_3]
  unfold out3_3
  rw [View.canon_unit_zero origin]
  simp only [View.ld_unit_zero (S := S5000x128) origin, View.ld_unit_zero (S := S5000x128) origin, View.ld_unit_zero (S := S128x128) origin, View.ld_unit_zero (S := S1x128) origin]
  rw [stored3]
  obtain ⟨e0, e1, e2, e3, e4, e5, e6, e7⟩ := grid_facts t
  funext j
  have hj0 : (j 0).val < 5000 := (j 0).isLt
  have hj1 : (j 1).val < 128 := (j 1).isLt
  have hrow : ∀ k : Fin 128, ((cfg3.win 0).blk t).view.emb (Cert.Pool.atRow j k) = Cert.Pool.atRow (((cfg3.win 3).blk t).view.emb j) k := fun k => by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  have hcol : ∀ k : Fin 128, ((cfg3.win 1).blk t).view.emb (Cert.Pool.atCol j k) = Cert.Pool.atCol (((cfg3.win 3).blk t).view.emb j) k := fun k => by
    funext a; apply Fin.ext
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega
  have hbias : ((cfg3.win 2).blk t).view.emb (biasRow (Cert.Pool.atBias j)) = biasRow (Cert.Pool.atBias (((cfg3.win 3).blk t).view.emb j)) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  show (∑ k : Fin 128, rowsIn V c (((cfg3.win 0).blk t).view.emb (Cert.Pool.atRow j k)) * weights V c (((cfg3.win 1).blk t).view.emb (Cert.Pool.atCol j k)))
      + biasIn V c (((cfg3.win 2).blk t).view.emb (biasRow (Cert.Pool.atBias j)))
    = (∑ k : Fin 128, rowsIn V c (Cert.Pool.atRow (((cfg3.win 3).blk t).view.emb j) k) * weights V c (Cert.Pool.atCol (((cfg3.win 3).blk t).view.emb j) k))
      + biasIn V c (biasRow (Cert.Pool.atBias (((cfg3.win 3).blk t).view.emb j)))
  rw [hbias]
  exact congrArg (· + _) (Finset.sum_congr rfl fun k _ => by rw [hrow k, hcol k])

/-- An entry is in point `t`'s block iff each coordinate is in the block's range. -/
theorem mem_block (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v23).slice (win3_3.rect t)).set ↔ _
  rw [View.set_slice_whole, Rect.mem_set_unit]
  exact Iff.rfl

/-- The ten blocks tile the array. -/
theorem tiled (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := grid_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE ARRAY the region leaves: the layer of the whole input, entry by entry. -/
theorem array (c : Dev nD) : (dat3 V c).arrAt 3 cfg3.N = layer V c :=
  (dat3 V c).arrAt_eq_of_cover 3 (layer V c) (fun t _ => flushed V c t) (tiled)

end Cert.KernelIdeal.Region3

end
-- ==== Proof.Region4.lean ====
/-
  The array the fifth pallas_call leaves.

  The call walks ten grid points. At point `t` it stages rows `5000·t … 5000·t + 4999` of its input matrix, the whole
  weight matrix and the bias row, and writes back the block its body stores: the linear layer of the staged
  rows after their positive part. The linear layer is row-local, so that block is rows `5000·t …` of the linear layer of the WHOLE input
  matrix's positive part; the ten blocks tile the 50000 rows; so the array ends as that linear layer, entry by entry.
-/
import proofs.«422275_j50749333569685_1_alg».proof.Proof.Gen.KernelIdeal.Frame
import proofs.«422275_j50749333569685_1_alg».proof.Proof.BodyLinear
import Idealize.ShloMosaic.Lib.Pipeline.Value

set_option maxRecDepth 16384

noncomputable section

namespace Cert.KernelIdeal.Region4

open Cert.KernelIdeal Cert.KernelIdeal.Gen Cert.KernelIdeal.BodyLinear Idealize.ShloMosaic Idealize.ShloMosaic.TcCoe
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The input matrix, the weights and the bias row as the region finds them, and the array it ends with. -/
abbrev rowsIn (c : Dev nD) : S50000x128.Idx → EReal := V c main_v27
abbrev weights (c : Dev nD) : S128x64.Idx → EReal := V c main_arg6
abbrev biasIn (c : Dev nD) : S1x64.Idx → EReal := V c main_v28

/-- The whole-array function the region computes. -/
abbrev layer (c : Dev nD) : S50000x64.Idx → EReal :=
  Cert.Pool.linear (Cert.Pool.positivePart (rowsIn V c)) (weights V c) (fun j => biasIn V c (biasRow j))

/-- The printed index maps, decided over the ten grid points: the input and the output block move together down the
    rows; the weights and the bias stay put. -/
theorem grid_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every block of rows is some point's. -/
theorem grid_onto : ∀ q : Fin 10, ∃ t : Fin cfg4.N, win4_3.index t = ![q.val, 0] :=
  (by decide +kernel : ∀ q : Fin 10, ∃ t : Fin grid4.N, win4_3.index t = ![q.val, 0])

/-- What point `t` writes back is block `t` of the layer of the whole input. -/
theorem flushed (c : Dev nD) (t : Fin cfg4.N) :
    (dat4 V c).flushed 3 t = ((cfg4.win 3).blk t).view.read (Elt Ideal) (layer V c) := by
  show (cfg4.win 3).cut (grid4.coords t) ((dat4 V c).after 3 t) = _
  rw [after4_3]
  unfold out4_3
  rw [View.canon_unit_zero origin]
  simp only [View.ld_unit_zero (S := S5000x64) origin, View.ld_unit_zero (S := S5000x128) origin, View.ld_unit_zero (S := S128x64) origin, View.ld_unit_zero (S := S1x64) origin]
  rw [stored4]
  obtain ⟨e0, e1, e2, e3, e4, e5, e6, e7⟩ := grid_facts t
  funext j
  have hj0 : (j 0).val < 5000 := (j 0).isLt
  have hj1 : (j 1).val < 64 := (j 1).isLt
  have hrow : ∀ k : Fin 128, ((cfg4.win 0).blk t).view.emb (Cert.Pool.atRow j k) = Cert.Pool.atRow (((cfg4.win 3).blk t).view.emb j) k := fun k => by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  have hcol : ∀ k : Fin 128, ((cfg4.win 1).blk t).view.emb (Cert.Pool.atCol j k) = Cert.Pool.atCol (((cfg4.win 3).blk t).view.emb j) k := fun k => by
    funext a; apply Fin.ext
    match a with
    | ⟨0, _⟩ => show win4_1.index t (0 : Fin 2) * 128 + 1 * k.val = k.val; omega
    | ⟨1, _⟩ => show win4_1.index t (1 : Fin 2) * 64 + 1 * (j 1).val = win4_3.index t (1 : Fin 2) * 64 + 1 * (j 1).val; omega
  have hbias : ((cfg4.win 2).blk t).view.emb (biasRow (Cert.Pool.atBias j)) = biasRow (Cert.Pool.atBias (((cfg4.win 3).blk t).view.emb j)) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  show (∑ k : Fin 128, max (rowsIn V c (((cfg4.win 0).blk t).view.emb (Cert.Pool.atRow j k))) 0 * weights V c (((cfg4.win 1).blk t).view.emb (Cert.Pool.atCol j k)))
      + biasIn V c (((cfg4.win 2).blk t).view.emb (biasRow (Cert.Pool.atBias j)))
    = (∑ k : Fin 128, max (rowsIn V c (Cert.Pool.atRow (((cfg4.win 3).blk t).view.emb j) k)) 0 * weights V c (Cert.Pool.atCol (((cfg4.win 3).blk t).view.emb j) k))
      + biasIn V c (biasRow (Cert.Pool.atBias (((cfg4.win 3).blk t).view.emb j)))
  rw [hbias]
  exact congrArg (· + _) (Finset.sum_congr rfl fun k _ => by rw [hrow k, hcol k])

/-- An entry is in point `t`'s block iff each coordinate is in the block's range. -/
theorem mem_block (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v29).slice (win4_3.rect t)).set ↔ _
  rw [View.set_slice_whole, Rect.mem_set_unit]
  exact Iff.rfl

/-- The ten blocks tile the array. -/
theorem tiled (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := grid_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE ARRAY the region leaves: the layer of the whole input, entry by entry. -/
theorem array (c : Dev nD) : (dat4 V c).arrAt 3 cfg4.N = layer V c :=
  (dat4 V c).arrAt_eq_of_cover 3 (layer V c) (fun t _ => flushed V c t) (tiled)

end Cert.KernelIdeal.Region4

end
-- ==== Proof.SourceRange.lean ====
/-
  The source indices are in range, so the kernel's range test passes on every edge.

  The kernel gathers row `src e` of a 50000-row matrix for every edge `e`, after moving a negative index up by 50000
  (an index counted from the end), and keeps the gathered row only where the moved index lies in `0 … 49999`; elsewhere
  it writes a filler. The reference gathers the same rows with no test. When every `src e` lies in `-50000 … 49999`
  the moved index lies in `0 … 49999`: a negative one gains exactly 50000 (no 32-bit overflow: the sum is below 50000),
  a non-negative one is kept. So the test is true on every edge, the filler is never written, and the kernel's gathered
  rows are the reference's.
-/
import proofs.«422275_j50749333569685_1_alg».proof.Proof.Gen.KernelIdeal
import Idealize.ShloMosaic.Lib.Affine
import Idealize.ShloMosaic.Lib.ReduceAll
import Idealize.ShloMosaic.Lib.Pipeline.Value

noncomputable section

namespace Cert.KernelIdeal.SourceRange

open Cert.KernelIdeal Cert.KernelIdeal.Gen Idealize.ShloMosaic

/-- A conjunction of ones is one. -/
theorem fold_andi_ones {ι : Type} [DecidableEq ι] (S : Finset ι) (f : ι → BitVec 1) (h : ∀ i ∈ S, f i = 1#1) :
    S.fold IntOp.andi 1#1 f = 1#1 := by
  induction S using Finset.induction_on with
  | empty => rfl
  | insert a S ha ih =>
    rw [Finset.fold_insert ha, h a (Finset.mem_insert_self a S), ih (fun i hi => h i (Finset.mem_insert_of_mem hi))]
    rfl

/-- A 32-bit index between -50000 and 49999, moved up by 50000 when negative, lies between 0 and 49999. -/
theorem moved_word (a : BitVec 32) (h1 : IntOp.cmpi .sge a 4294917296#32 = 1#1) (h2 : IntOp.cmpi .slt a 50000#32 = 1#1) :
    IntOp.cmpi .sge (Scalar.select (IntOp.cmpi .slt a 0#32) (IntOp.addi a 50000#32) a) 0#32 = 1#1
    ∧ IntOp.cmpi .sle (Scalar.select (IntOp.cmpi .slt a 0#32) (IntOp.addi a 50000#32) a) 49999#32 = 1#1 := by
  rw [IntOp.cmpi_sge] at h1
  rw [IntOp.cmpi_slt] at h2
  rw [IntOp.cmpi_sge, IntOp.cmpi_sle]
  have e1 : (4294917296#32 : BitVec 32).toInt = -50000 := by decide
  have e2 : (50000#32 : BitVec 32).toInt = 50000 := by decide
  have e3 : (0#32 : BitVec 32).toInt = 0 := by decide
  have e4 : (49999#32 : BitVec 32).toInt = 49999 := by decide
  rw [e1] at h1; rw [e2] at h2; rw [e3, e4]
  unfold Scalar.select
  by_cases hn : a.toInt < 0
  · have hc : IntOp.cmpi .slt a 0#32 = 1 := (IntOp.cmpi_slt (x := a) (y := 0#32)).2 (by rw [e3]; exact hn)
    rw [if_pos hc]
    have hadd : (IntOp.addi a 50000#32).toInt = a.toInt + 50000 := by
      unfold IntOp.addi
      rw [BitVec.toInt_add, e2]
      have : ((a.toInt + 50000 : Int)).bmod (2 ^ 32) = a.toInt + 50000 := by
        apply Int.bmod_eq_of_le <;> omega
      exact this
    rw [hadd]; omega
  · have hc : ¬ IntOp.cmpi .slt a 0#32 = 1 := by
      intro h
      have := (IntOp.cmpi_slt (x := a) (y := 0#32)).1 h
      rw [e3] at this; exact hn this
    rw [if_neg hc]; omega

/-- The source indices with the negative ones moved up by the number of rows. -/
def moved (s : IVec S600000 32) : IVec S600000 32 :=
  select (cmpi .slt s (broadcastInDim S600000 ![] bcast_S_S600000 (constantI S_ 32 0#32)))
    (addi s (broadcastInDim S600000 ![] bcast_S_S600000 (constantI S_ 32 50000#32))) s

/-- The moved indices as a column: the start indices of the gather. -/
def startColumn (s : IVec S600000 32) : IVec S600000x1 32 :=
  broadcastInDim S600000x1 ![0] bcast_S600000_S600000x1_0 (moved s)

/-- The kernel's test, per edge: the start index is at least 0 and at most 49999. -/
def rangeTest (I : IVec S600000x1 32) : IVec S600000 1 :=
  (fun x v => Host.reduce IntOp.andi x v reducesTo_S600000x1_S600000_d1 h_S_)
    (andi (cmpi .sge I (broadcastInDim S600000x1 ![] bcast_S_S600000x1 (constantI S_ 32 0#32)))
      (cmpi .sle I (broadcastInDim S600000x1 ![0, 1] bcast_S1x1_S600000x1_0_1 (broadcastInDim S1x1 ![1] bcast_S1_S1x1_1 (constantI S1 32 49999#32)))))
    (constantI S_ 1 1#1)

/-- The edge a column entry belongs to. -/
abbrev edgeOf (i : S600000x1.Idx) : S600000.Idx := fun a => match a with
  | ⟨0, _⟩ => ⟨(i 0).val, (i 0).isLt⟩

theorem startColumn_apply (s : IVec S600000 32) (i : S600000x1.Idx) :
    startColumn s i = Scalar.select (IntOp.cmpi .slt (s (edgeOf i)) 0#32) (IntOp.addi (s (edgeOf i)) 50000#32) (s (edgeOf i)) := by
  unfold startColumn
  rw [broadcastInDim_apply _ bcast_S600000_S600000x1_0 (moved s) i (edgeOf i) (fun a => match a with
    | ⟨0, _⟩ => by show (i 0).val = if (600000 : Nat) = 1 then 0 else (i 0).val; rw [if_neg (by decide)])]
  unfold moved
  show Scalar.select (IntOp.cmpi .slt (s (edgeOf i)) (broadcastInDim S600000 ![] bcast_S_S600000 (constantI S_ 32 0#32) (edgeOf i)))
      (IntOp.addi (s (edgeOf i)) (broadcastInDim S600000 ![] bcast_S_S600000 (constantI S_ 32 50000#32) (edgeOf i))) (s (edgeOf i)) = _
  rw [broadcastInDim_apply _ bcast_S_S600000 (constantI S_ 32 0#32) (edgeOf i) (fun a => a.elim0) (fun a => a.elim0),
    broadcastInDim_apply _ bcast_S_S600000 (constantI S_ 32 50000#32) (edgeOf i) (fun a => a.elim0) (fun a => a.elim0)]
  rfl

/-- With every source index between -50000 and 49999 the test is true on every edge. -/
theorem rangeTest_startColumn (s : IVec S600000 32)
    (hs : ∀ e : S600000.Idx, IntOp.cmpi .sge (s e) 4294917296#32 = 1#1 ∧ IntOp.cmpi .slt (s e) 50000#32 = 1#1) :
    rangeTest (startColumn s) = fun _ => 1#1 := by
  funext e
  unfold rangeTest
  show Host.reduce IntOp.andi _ (constantI S_ 1 1#1) reducesTo_S600000x1_S600000_d1 h_S_ e = 1#1
  rw [Host.reduce_eq_fold]
  refine fold_andi_ones _ _ fun i _ => ?_
  show IntOp.andi (IntOp.cmpi .sge (startColumn s i) (broadcastInDim S600000x1 ![] bcast_S_S600000x1 (constantI S_ 32 0#32) i))
      (IntOp.cmpi .sle (startColumn s i) (broadcastInDim S600000x1 ![0, 1] bcast_S1x1_S600000x1_0_1 (broadcastInDim S1x1 ![1] bcast_S1_S1x1_1 (constantI S1 32 49999#32)) i)) = 1#1
  rw [broadcastInDim_apply _ bcast_S_S600000x1 (constantI S_ 32 0#32) i (fun a => a.elim0) (fun a => a.elim0)]
  have hhi : broadcastInDim S600000x1 ![0, 1] bcast_S1x1_S600000x1_0_1 (broadcastInDim S1x1 ![1] bcast_S1_S1x1_1 (constantI S1 32 49999#32)) i = 49999#32 := by
    unfold broadcastInDim; rfl
  rw [hhi, startColumn_apply]
  obtain ⟨h1, h2⟩ := hs (edgeOf i)
  obtain ⟨g1, g2⟩ := moved_word (s (edgeOf i)) h1 h2
  exact IntOp.andi_eq_one.2 ⟨g1, g2⟩

/-- Where the test is true on every edge, keeping the gathered rows under it and a filler elsewhere keeps the gathered
    rows. -/
theorem kept_of_ones {F : FTy → Type} [FloatOps F] (G fill : FVec F S600000x128 .f32) :
    select (broadcastInDim S600000x128 ![0] bcast_S600000_S600000x128_0 ((fun _ => (1#1 : BitVec 1)) : IVec S600000 1)) G fill = G := by
  funext i
  unfold select broadcastInDim
  show Scalar.select (1#1 : BitVec 1) (G i) (fill i) = G i
  rfl

end Cert.KernelIdeal.SourceRange

end
-- ==== Proof.HostStretch.lean ====
/-
  The host operations between the pallas_calls, as functions of what they find.

  Before the first call the edge list is split into its two rows, the sources and the destinations, and the first bias
  is laid out as one row. Between two calls the program gathers, for every edge, the source's row of the matrix the
  previous call left — kept under the range test of its moved index, a filler elsewhere —, adds the kept rows into the
  destinations' rows of a zero matrix, and lays the next bias out as one row. With every source in range the test is
  true on every edge, so the kept rows are the gathered rows: the plain neighbour sum.
-/
import proofs.«422275_j50749333569685_1_alg».proof.Proof.Gen.KernelIdeal.Launch
import proofs.«422275_j50749333569685_1_alg».proof.Proof.SourceRange
import Idealize.ShloMosaic.Lib.StableHlo.Run
import Idealize.ShloMosaic.PureOps.Ideal

set_option maxRecDepth 16384

noncomputable section

namespace Cert.KernelIdeal.HostStretch

open Cert.KernelIdeal Cert.KernelIdeal.Gen Cert.KernelIdeal.SourceRange Idealize.ShloMosaic Idealize.ShloMosaic.TcCoe Idealize.ShloMosaic.StableHlo

/-- The sources: the first row of the edge list. -/
def sources (E : IVec S2x600000 32) : IVec S600000 32 :=
  shapeCast S600000 (extractStridedSlice S1x600000 ![0, 0] E slices_S2x600000_S1x600000_0_0) shapeCasts_S1x600000_S600000

/-- The destinations: its second row. -/
def destinations (E : IVec S2x600000 32) : IVec S600000 32 :=
  shapeCast S600000 (extractStridedSlice S1x600000 ![1, 0] E slices_S2x600000_S1x600000_1_0) shapeCasts_S1x600000_S600000

/-- The gathered rows as the kernel keeps them: under the range test, a filler elsewhere. -/
def keptRows (s : IVec S600000 32) (M : FVec Ideal S50000x128 .f32) : FVec Ideal S600000x128 .f32 :=
  select (broadcastInDim S600000x128 ![0] bcast_S600000_S600000x128_0 (rangeTest (startColumn s)))
    (Host.gather gather_S50000x128_S600000x1_S600000x128_1_0_n_n_0_1_1128 M (startColumn s))
    (broadcastInDim S600000x128 ![] bcast_S_S600000x128 (constant (F := Ideal) S_ .f32 0x7FC00000#32))

/-- Rows added into the destinations' rows of a zero matrix. -/
def addedInto (d : IVec S600000 32) (R : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 d) R

/-- The neighbour sum: the gathered rows, with no test, added into the destinations' rows. -/
def neighbourSum (s d : IVec S600000 32) (M : FVec Ideal S50000x128 .f32) : FVec Ideal S50000x128 .f32 :=
  addedInto d (Host.gather gather_S50000x128_S600000x1_S600000x128_1_0_n_n_0_1_1128 M (startColumn s))

/-- With every source between -50000 and 49999 the kernel's kept rows are the gathered rows. -/
theorem keptRows_eq (s : IVec S600000 32) (M : FVec Ideal S50000x128 .f32)
    (hs : ∀ e : S600000.Idx, IntOp.cmpi .sge (s e) 4294917296#32 = 1#1 ∧ IntOp.cmpi .slt (s e) 50000#32 = 1#1) :
    keptRows s M = Host.gather gather_S50000x128_S600000x1_S600000x128_1_0_n_n_0_1_1128 M (startColumn s) := by
  unfold keptRows
  rw [rangeTest_startColumn s hs]
  exact kept_of_ones _ _

/-- Contents carried to a buffer's own type and back are the contents. -/
theorem ofBuf_toBuf {T : BufTy} (x : TRef sig T) (v : T.Contents (Elt Ideal)) : x.ofBuf (x.toBuf v) = v := by
  obtain ⟨r, h, a, b⟩ := x
  subst h
  rfl

variable (W : Valuation τ sig (Elt Ideal))

theorem split_sources : (StableHlo.after hostOps0 W (Proc.devRef .tc main_v1) : IVec S600000 32) = sources (W (Proc.devRef .tc main_arg1)) := by
  dsimp only [hostOps0]; after_results; rfl
theorem split_destinations : (StableHlo.after hostOps0 W (Proc.devRef .tc main_v3) : IVec S600000 32) = destinations (W (Proc.devRef .tc main_arg1)) := by
  dsimp only [hostOps0]; after_results; rfl
theorem bias_row0 : (StableHlo.after hostOps0 W (Proc.devRef .tc main_v4) : FVec Ideal S1x128 .f32) = shapeCast S1x128 (W (Proc.devRef .tc main_arg3)) shapeCasts_S128_S1x128 := by
  dsimp only [hostOps0]; after_results; rfl

set_option maxHeartbeats 4000000 in
/-- After the first call: the kept rows of the matrix it left. -/
theorem kept1 : (StableHlo.after hostOps1 W (Proc.devRef .tc main_v6) : FVec Ideal S600000x128 .f32)
    = keptRows (W (Proc.devRef .tc main_v1)) (W (Proc.devRef .tc main_v5)) := by
  dsimp only [hostOps1]
  after_results_simp
  unfold keptRows rangeTest startColumn moved
  simp only [ofBuf_toBuf]
  simp only [cast_eq]
/-- Then the kept rows added into the destinations' rows, -/
theorem summed1 : (StableHlo.after hostOps1_1 W (Proc.devRef .tc main_v9) : FVec Ideal S50000x128 .f32)
    = addedInto (W (Proc.devRef .tc main_v3)) (W (Proc.devRef .tc main_v6)) := by
  dsimp only [hostOps1_1]; after_results
  unfold addedInto
  rfl
/-- and the next bias laid out as one row. -/
theorem bias_row1 : (StableHlo.after hostOps1_1 W (Proc.devRef .tc main_v10) : FVec Ideal S1x128 .f32)
    = shapeCast S1x128 (W (Proc.devRef .tc main_arg3)) shapeCasts_S128_S1x128 := by
  dsimp only [hostOps1_1]; after_results; rfl

set_option maxHeartbeats 4000000 in
/-- After the second call: the kept rows of the matrix it left. -/
theorem kept2 : (StableHlo.after hostOps2 W (Proc.devRef .tc main_v12) : FVec Ideal S600000x128 .f32)
    = keptRows (W (Proc.devRef .tc main_v1)) (W (Proc.devRef .tc main_v11)) := by
  dsimp only [hostOps2]
  after_results_simp
  unfold keptRows rangeTest startColumn moved
  simp only [ofBuf_toBuf]
  simp only [cast_eq]
/-- Then the kept rows added into the destinations' rows, -/
theorem summed2 : (StableHlo.after hostOps2_1 W (Proc.devRef .tc main_v15) : FVec Ideal S50000x128 .f32)
    = addedInto (W (Proc.devRef .tc main_v3)) (W (Proc.devRef .tc main_v12)) := by
  dsimp only [hostOps2_1]; after_results
  unfold addedInto
  rfl
/-- and the next bias laid out as one row. -/
theorem bias_row2 : (StableHlo.after hostOps2_1 W (Proc.devRef .tc main_v16) : FVec Ideal S1x128 .f32)
    = shapeCast S1x128 (W (Proc.devRef .tc main_arg5)) shapeCasts_S128_S1x128 := by
  dsimp only [hostOps2_1]; after_results; rfl

set_option maxHeartbeats 4000000 in
/-- After the third call: the kept rows of the matrix it left. -/
theorem kept3 : (StableHlo.after hostOps3 W (Proc.devRef .tc main_v18) : FVec Ideal S600000x128 .f32)
    = keptRows (W (Proc.devRef .tc main_v1)) (W (Proc.devRef .tc main_v17)) := by
  dsimp only [hostOps3]
  after_results_simp
  unfold keptRows rangeTest startColumn moved
  simp only [ofBuf_toBuf]
  simp only [cast_eq]
/-- Then the kept rows added into the destinations' rows, -/
theorem summed3 : (StableHlo.after hostOps3_1 W (Proc.devRef .tc main_v21) : FVec Ideal S50000x128 .f32)
    = addedInto (W (Proc.devRef .tc main_v3)) (W (Proc.devRef .tc main_v18)) := by
  dsimp only [hostOps3_1]; after_results
  unfold addedInto
  rfl
/-- and the next bias laid out as one row. -/
theorem bias_row3 : (StableHlo.after hostOps3_1 W (Proc.devRef .tc main_v22) : FVec Ideal S1x128 .f32)
    = shapeCast S1x128 (W (Proc.devRef .tc main_arg5)) shapeCasts_S128_S1x128 := by
  dsimp only [hostOps3_1]; after_results; rfl

set_option maxHeartbeats 4000000 in
/-- After the fourth call: the kept rows of the matrix it left. -/
theorem kept4 : (StableHlo.after hostOps4 W (Proc.devRef .tc main_v24) : FVec Ideal S600000x128 .f32)
    = keptRows (W (Proc.devRef .tc main_v1)) (W (Proc.devRef .tc main_v23)) := by
  dsimp only [hostOps4]
  after_results_simp
  unfold keptRows rangeTest startColumn moved
  simp only [ofBuf_toBuf]
  simp only [cast_eq]
/-- Then the kept rows added into the destinations' rows, -/
theorem summed4 : (StableHlo.after hostOps4_1 W (Proc.devRef .tc main_v27) : FVec Ideal S50000x128 .f32)
    = addedInto (W (Proc.devRef .tc main_v3)) (W (Proc.devRef .tc main_v24)) := by
  dsimp only [hostOps4_1]; after_results
  unfold addedInto
  rfl
/-- and the next bias laid out as one row. -/
theorem bias_row4 : (StableHlo.after hostOps4_1 W (Proc.devRef .tc main_v28) : FVec Ideal S1x64 .f32)
    = shapeCast S1x64 (W (Proc.devRef .tc main_arg7)) shapeCasts_S64_S1x64 := by
  dsimp only [hostOps4_1]; after_results; rfl

end Cert.KernelIdeal.HostStretch

end
-- ==== Proof.Unchanged.lean ====
/-
  Buffers that are still what they were. The program is fourteen segments: stretches of host operations and
  pallas_calls, alternately. A stretch leaves a buffer it does not write as it found it; a call leaves every buffer
  that is not one of its output arrays as it found it (an input window's array ends as it started). So each argument
  array, read at the boundary where a later segment reads it, is the launch contents, and the two rows of the edge
  list, split off by the first stretch, are the same two rows at every later boundary.
-/
import proofs.«422275_j50749333569685_1_alg».proof.Proof.Gen.KernelIdeal.Frame
import proofs.«422275_j50749333569685_1_alg».proof.Proof.HostStretch

set_option maxRecDepth 16384

noncomputable section

namespace Cert.KernelIdeal.Unchanged

open Cert.KernelIdeal Cert.KernelIdeal.Gen Cert.KernelIdeal.HostStretch Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

/-- A stretch of host operations, none of which writes buffer `b`, leaves `b` as it found it. -/
macro "kept_by " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

theorem features_at0 (c : Dev nD) : W0 m ρ c (Proc.devRef .tc main_arg0) = m ((c : Thread nD τ).loc main_arg0) := rfl
theorem features_at1 (c : Dev nD) : W1 m ρ c (Proc.devRef .tc main_arg0) = m ((c : Thread nD τ).loc main_arg0) :=
  (show W1 m ρ c (Proc.devRef .tc main_arg0) = W0 m ρ c (Proc.devRef .tc main_arg0) from (by kept_by hostOps0 main_arg0)).trans (features_at0 m ρ c)

theorem weights1_at0 (c : Dev nD) : W0 m ρ c (Proc.devRef .tc main_arg2) = m ((c : Thread nD τ).loc main_arg2) := rfl
theorem weights1_at1 (c : Dev nD) : W1 m ρ c (Proc.devRef .tc main_arg2) = m ((c : Thread nD τ).loc main_arg2) :=
  (show W1 m ρ c (Proc.devRef .tc main_arg2) = W0 m ρ c (Proc.devRef .tc main_arg2) from (by kept_by hostOps0 main_arg2)).trans (weights1_at0 m ρ c)
theorem weights1_at2 (c : Dev nD) : W2 m ρ c (Proc.devRef .tc main_arg2) = m ((c : Thread nD τ).loc main_arg2) :=
  (show W2 m ρ c (Proc.devRef .tc main_arg2) = W1 m ρ c (Proc.devRef .tc main_arg2) from ((W2_arr m ρ c 1).trans (((dat0 (V1 m ρ) c).arrAt_in 1 rfl _).trans (A_eq0 (V1 m ρ) c 1)))).trans (weights1_at1 m ρ c)
theorem weights1_at3 (c : Dev nD) : W3 m ρ c (Proc.devRef .tc main_arg2) = m ((c : Thread nD τ).loc main_arg2) :=
  (show W3 m ρ c (Proc.devRef .tc main_arg2) = W2 m ρ c (Proc.devRef .tc main_arg2) from (by kept_by hostOps1 main_arg2)).trans (weights1_at2 m ρ c)
theorem weights1_at4 (c : Dev nD) : W4 m ρ c (Proc.devRef .tc main_arg2) = m ((c : Thread nD τ).loc main_arg2) :=
  (show W4 m ρ c (Proc.devRef .tc main_arg2) = W3 m ρ c (Proc.devRef .tc main_arg2) from (by kept_by hostOps1_1 main_arg2)).trans (weights1_at3 m ρ c)

theorem bias1_at0 (c : Dev nD) : W0 m ρ c (Proc.devRef .tc main_arg3) = m ((c : Thread nD τ).loc main_arg3) := rfl
theorem bias1_at1 (c : Dev nD) : W1 m ρ c (Proc.devRef .tc main_arg3) = m ((c : Thread nD τ).loc main_arg3) :=
  (show W1 m ρ c (Proc.devRef .tc main_arg3) = W0 m ρ c (Proc.devRef .tc main_arg3) from (by kept_by hostOps0 main_arg3)).trans (bias1_at0 m ρ c)
theorem bias1_at2 (c : Dev nD) : W2 m ρ c (Proc.devRef .tc main_arg3) = m ((c : Thread nD τ).loc main_arg3) :=
  (show W2 m ρ c (Proc.devRef .tc main_arg3) = W1 m ρ c (Proc.devRef .tc main_arg3) from (W2_of_ne m ρ c main_arg3 (by decide))).trans (bias1_at1 m ρ c)
theorem bias1_at3 (c : Dev nD) : W3 m ρ c (Proc.devRef .tc main_arg3) = m ((c : Thread nD τ).loc main_arg3) :=
  (show W3 m ρ c (Proc.devRef .tc main_arg3) = W2 m ρ c (Proc.devRef .tc main_arg3) from (by kept_by hostOps1 main_arg3)).trans (bias1_at2 m ρ c)

theorem weights2_at0 (c : Dev nD) : W0 m ρ c (Proc.devRef .tc main_arg4) = m ((c : Thread nD τ).loc main_arg4) := rfl
theorem weights2_at1 (c : Dev nD) : W1 m ρ c (Proc.devRef .tc main_arg4) = m ((c : Thread nD τ).loc main_arg4) :=
  (show W1 m ρ c (Proc.devRef .tc main_arg4) = W0 m ρ c (Proc.devRef .tc main_arg4) from (by kept_by hostOps0 main_arg4)).trans (weights2_at0 m ρ c)
theorem weights2_at2 (c : Dev nD) : W2 m ρ c (Proc.devRef .tc main_arg4) = m ((c : Thread nD τ).loc main_arg4) :=
  (show W2 m ρ c (Proc.devRef .tc main_arg4) = W1 m ρ c (Proc.devRef .tc main_arg4) from (W2_of_ne m ρ c main_arg4 (by decide))).trans (weights2_at1 m ρ c)
theorem weights2_at3 (c : Dev nD) : W3 m ρ c (Proc.devRef .tc main_arg4) = m ((c : Thread nD τ).loc main_arg4) :=
  (show W3 m ρ c (Proc.devRef .tc main_arg4) = W2 m ρ c (Proc.devRef .tc main_arg4) from (by kept_by hostOps1 main_arg4)).trans (weights2_at2 m ρ c)
theorem weights2_at4 (c : Dev nD) : W4 m ρ c (Proc.devRef .tc main_arg4) = m ((c : Thread nD τ).loc main_arg4) :=
  (show W4 m ρ c (Proc.devRef .tc main_arg4) = W3 m ρ c (Proc.devRef .tc main_arg4) from (by kept_by hostOps1_1 main_arg4)).trans (weights2_at3 m ρ c)
theorem weights2_at5 (c : Dev nD) : W5 m ρ c (Proc.devRef .tc main_arg4) = m ((c : Thread nD τ).loc main_arg4) :=
  (show W5 m ρ c (Proc.devRef .tc main_arg4) = W4 m ρ c (Proc.devRef .tc main_arg4) from (W5_of_ne m ρ c main_arg4 (by decide))).trans (weights2_at4 m ρ c)
theorem weights2_at6 (c : Dev nD) : W6 m ρ c (Proc.devRef .tc main_arg4) = m ((c : Thread nD τ).loc main_arg4) :=
  (show W6 m ρ c (Proc.devRef .tc main_arg4) = W5 m ρ c (Proc.devRef .tc main_arg4) from (by kept_by hostOps2 main_arg4)).trans (weights2_at5 m ρ c)
theorem weights2_at7 (c : Dev nD) : W7 m ρ c (Proc.devRef .tc main_arg4) = m ((c : Thread nD τ).loc main_arg4) :=
  (show W7 m ρ c (Proc.devRef .tc main_arg4) = W6 m ρ c (Proc.devRef .tc main_arg4) from (by kept_by hostOps2_1 main_arg4)).trans (weights2_at6 m ρ c)
theorem weights2_at8 (c : Dev nD) : W8 m ρ c (Proc.devRef .tc main_arg4) = m ((c : Thread nD τ).loc main_arg4) :=
  (show W8 m ρ c (Proc.devRef .tc main_arg4) = W7 m ρ c (Proc.devRef .tc main_arg4) from ((W8_arr m ρ c 1).trans (((dat2 (V7 m ρ) c).arrAt_in 1 rfl _).trans (A_eq2 (V7 m ρ) c 1)))).trans (weights2_at7 m ρ c)
theorem weights2_at9 (c : Dev nD) : W9 m ρ c (Proc.devRef .tc main_arg4) = m ((c : Thread nD τ).loc main_arg4) :=
  (show W9 m ρ c (Proc.devRef .tc main_arg4) = W8 m ρ c (Proc.devRef .tc main_arg4) from (by kept_by hostOps3 main_arg4)).trans (weights2_at8 m ρ c)
theorem weights2_at10 (c : Dev nD) : W10 m ρ c (Proc.devRef .tc main_arg4) = m ((c : Thread nD τ).loc main_arg4) :=
  (show W10 m ρ c (Proc.devRef .tc main_arg4) = W9 m ρ c (Proc.devRef .tc main_arg4) from (by kept_by hostOps3_1 main_arg4)).trans (weights2_at9 m ρ c)

theorem bias2_at0 (c : Dev nD) : W0 m ρ c (Proc.devRef .tc main_arg5) = m ((c : Thread nD τ).loc main_arg5) := rfl
theorem bias2_at1 (c : Dev nD) : W1 m ρ c (Proc.devRef .tc main_arg5) = m ((c : Thread nD τ).loc main_arg5) :=
  (show W1 m ρ c (Proc.devRef .tc main_arg5) = W0 m ρ c (Proc.devRef .tc main_arg5) from (by kept_by hostOps0 main_arg5)).trans (bias2_at0 m ρ c)
theorem bias2_at2 (c : Dev nD) : W2 m ρ c (Proc.devRef .tc main_arg5) = m ((c : Thread nD τ).loc main_arg5) :=
  (show W2 m ρ c (Proc.devRef .tc main_arg5) = W1 m ρ c (Proc.devRef .tc main_arg5) from (W2_of_ne m ρ c main_arg5 (by decide))).trans (bias2_at1 m ρ c)
theorem bias2_at3 (c : Dev nD) : W3 m ρ c (Proc.devRef .tc main_arg5) = m ((c : Thread nD τ).loc main_arg5) :=
  (show W3 m ρ c (Proc.devRef .tc main_arg5) = W2 m ρ c (Proc.devRef .tc main_arg5) from (by kept_by hostOps1 main_arg5)).trans (bias2_at2 m ρ c)
theorem bias2_at4 (c : Dev nD) : W4 m ρ c (Proc.devRef .tc main_arg5) = m ((c : Thread nD τ).loc main_arg5) :=
  (show W4 m ρ c (Proc.devRef .tc main_arg5) = W3 m ρ c (Proc.devRef .tc main_arg5) from (by kept_by hostOps1_1 main_arg5)).trans (bias2_at3 m ρ c)
theorem bias2_at5 (c : Dev nD) : W5 m ρ c (Proc.devRef .tc main_arg5) = m ((c : Thread nD τ).loc main_arg5) :=
  (show W5 m ρ c (Proc.devRef .tc main_arg5) = W4 m ρ c (Proc.devRef .tc main_arg5) from (W5_of_ne m ρ c main_arg5 (by decide))).trans (bias2_at4 m ρ c)
theorem bias2_at6 (c : Dev nD) : W6 m ρ c (Proc.devRef .tc main_arg5) = m ((c : Thread nD τ).loc main_arg5) :=
  (show W6 m ρ c (Proc.devRef .tc main_arg5) = W5 m ρ c (Proc.devRef .tc main_arg5) from (by kept_by hostOps2 main_arg5)).trans (bias2_at5 m ρ c)
theorem bias2_at7 (c : Dev nD) : W7 m ρ c (Proc.devRef .tc main_arg5) = m ((c : Thread nD τ).loc main_arg5) :=
  (show W7 m ρ c (Proc.devRef .tc main_arg5) = W6 m ρ c (Proc.devRef .tc main_arg5) from (by kept_by hostOps2_1 main_arg5)).trans (bias2_at6 m ρ c)
theorem bias2_at8 (c : Dev nD) : W8 m ρ c (Proc.devRef .tc main_arg5) = m ((c : Thread nD τ).loc main_arg5) :=
  (show W8 m ρ c (Proc.devRef .tc main_arg5) = W7 m ρ c (Proc.devRef .tc main_arg5) from (W8_of_ne m ρ c main_arg5 (by decide))).trans (bias2_at7 m ρ c)
theorem bias2_at9 (c : Dev nD) : W9 m ρ c (Proc.devRef .tc main_arg5) = m ((c : Thread nD τ).loc main_arg5) :=
  (show W9 m ρ c (Proc.devRef .tc main_arg5) = W8 m ρ c (Proc.devRef .tc main_arg5) from (by kept_by hostOps3 main_arg5)).trans (bias2_at8 m ρ c)

theorem weightsOut_at0 (c : Dev nD) : W0 m ρ c (Proc.devRef .tc main_arg6) = m ((c : Thread nD τ).loc main_arg6) := rfl
theorem weightsOut_at1 (c : Dev nD) : W1 m ρ c (Proc.devRef .tc main_arg6) = m ((c : Thread nD τ).loc main_arg6) :=
  (show W1 m ρ c (Proc.devRef .tc main_arg6) = W0 m ρ c (Proc.devRef .tc main_arg6) from (by kept_by hostOps0 main_arg6)).trans (weightsOut_at0 m ρ c)
theorem weightsOut_at2 (c : Dev nD) : W2 m ρ c (Proc.devRef .tc main_arg6) = m ((c : Thread nD τ).loc main_arg6) :=
  (show W2 m ρ c (Proc.devRef .tc main_arg6) = W1 m ρ c (Proc.devRef .tc main_arg6) from (W2_of_ne m ρ c main_arg6 (by decide))).trans (weightsOut_at1 m ρ c)
theorem weightsOut_at3 (c : Dev nD) : W3 m ρ c (Proc.devRef .tc main_arg6) = m ((c : Thread nD τ).loc main_arg6) :=
  (show W3 m ρ c (Proc.devRef .tc main_arg6) = W2 m ρ c (Proc.devRef .tc main_arg6) from (by kept_by hostOps1 main_arg6)).trans (weightsOut_at2 m ρ c)
theorem weightsOut_at4 (c : Dev nD) : W4 m ρ c (Proc.devRef .tc main_arg6) = m ((c : Thread nD τ).loc main_arg6) :=
  (show W4 m ρ c (Proc.devRef .tc main_arg6) = W3 m ρ c (Proc.devRef .tc main_arg6) from (by kept_by hostOps1_1 main_arg6)).trans (weightsOut_at3 m ρ c)
theorem weightsOut_at5 (c : Dev nD) : W5 m ρ c (Proc.devRef .tc main_arg6) = m ((c : Thread nD τ).loc main_arg6) :=
  (show W5 m ρ c (Proc.devRef .tc main_arg6) = W4 m ρ c (Proc.devRef .tc main_arg6) from (W5_of_ne m ρ c main_arg6 (by decide))).trans (weightsOut_at4 m ρ c)
theorem weightsOut_at6 (c : Dev nD) : W6 m ρ c (Proc.devRef .tc main_arg6) = m ((c : Thread nD τ).loc main_arg6) :=
  (show W6 m ρ c (Proc.devRef .tc main_arg6) = W5 m ρ c (Proc.devRef .tc main_arg6) from (by kept_by hostOps2 main_arg6)).trans (weightsOut_at5 m ρ c)
theorem weightsOut_at7 (c : Dev nD) : W7 m ρ c (Proc.devRef .tc main_arg6) = m ((c : Thread nD τ).loc main_arg6) :=
  (show W7 m ρ c (Proc.devRef .tc main_arg6) = W6 m ρ c (Proc.devRef .tc main_arg6) from (by kept_by hostOps2_1 main_arg6)).trans (weightsOut_at6 m ρ c)
theorem weightsOut_at8 (c : Dev nD) : W8 m ρ c (Proc.devRef .tc main_arg6) = m ((c : Thread nD τ).loc main_arg6) :=
  (show W8 m ρ c (Proc.devRef .tc main_arg6) = W7 m ρ c (Proc.devRef .tc main_arg6) from (W8_of_ne m ρ c main_arg6 (by decide))).trans (weightsOut_at7 m ρ c)
theorem weightsOut_at9 (c : Dev nD) : W9 m ρ c (Proc.devRef .tc main_arg6) = m ((c : Thread nD τ).loc main_arg6) :=
  (show W9 m ρ c (Proc.devRef .tc main_arg6) = W8 m ρ c (Proc.devRef .tc main_arg6) from (by kept_by hostOps3 main_arg6)).trans (weightsOut_at8 m ρ c)
theorem weightsOut_at10 (c : Dev nD) : W10 m ρ c (Proc.devRef .tc main_arg6) = m ((c : Thread nD τ).loc main_arg6) :=
  (show W10 m ρ c (Proc.devRef .tc main_arg6) = W9 m ρ c (Proc.devRef .tc main_arg6) from (by kept_by hostOps3_1 main_arg6)).trans (weightsOut_at9 m ρ c)
theorem weightsOut_at11 (c : Dev nD) : W11 m ρ c (Proc.devRef .tc main_arg6) = m ((c : Thread nD τ).loc main_arg6) :=
  (show W11 m ρ c (Proc.devRef .tc main_arg6) = W10 m ρ c (Proc.devRef .tc main_arg6) from (W11_of_ne m ρ c main_arg6 (by decide))).trans (weightsOut_at10 m ρ c)
theorem weightsOut_at12 (c : Dev nD) : W12 m ρ c (Proc.devRef .tc main_arg6) = m ((c : Thread nD τ).loc main_arg6) :=
  (show W12 m ρ c (Proc.devRef .tc main_arg6) = W11 m ρ c (Proc.devRef .tc main_arg6) from (by kept_by hostOps4 main_arg6)).trans (weightsOut_at11 m ρ c)
theorem weightsOut_at13 (c : Dev nD) : W13 m ρ c (Proc.devRef .tc main_arg6) = m ((c : Thread nD τ).loc main_arg6) :=
  (show W13 m ρ c (Proc.devRef .tc main_arg6) = W12 m ρ c (Proc.devRef .tc main_arg6) from (by kept_by hostOps4_1 main_arg6)).trans (weightsOut_at12 m ρ c)

theorem biasOut_at0 (c : Dev nD) : W0 m ρ c (Proc.devRef .tc main_arg7) = m ((c : Thread nD τ).loc main_arg7) := rfl
theorem biasOut_at1 (c : Dev nD) : W1 m ρ c (Proc.devRef .tc main_arg7) = m ((c : Thread nD τ).loc main_arg7) :=
  (show W1 m ρ c (Proc.devRef .tc main_arg7) = W0 m ρ c (Proc.devRef .tc main_arg7) from (by kept_by hostOps0 main_arg7)).trans (biasOut_at0 m ρ c)
theorem biasOut_at2 (c : Dev nD) : W2 m ρ c (Proc.devRef .tc main_arg7) = m ((c : Thread nD τ).loc main_arg7) :=
  (show W2 m ρ c (Proc.devRef .tc main_arg7) = W1 m ρ c (Proc.devRef .tc main_arg7) from (W2_of_ne m ρ c main_arg7 (by decide))).trans (biasOut_at1 m ρ c)
theorem biasOut_at3 (c : Dev nD) : W3 m ρ c (Proc.devRef .tc main_arg7) = m ((c : Thread nD τ).loc main_arg7) :=
  (show W3 m ρ c (Proc.devRef .tc main_arg7) = W2 m ρ c (Proc.devRef .tc main_arg7) from (by kept_by hostOps1 main_arg7)).trans (biasOut_at2 m ρ c)
theorem biasOut_at4 (c : Dev nD) : W4 m ρ c (Proc.devRef .tc main_arg7) = m ((c : Thread nD τ).loc main_arg7) :=
  (show W4 m ρ c (Proc.devRef .tc main_arg7) = W3 m ρ c (Proc.devRef .tc main_arg7) from (by kept_by hostOps1_1 main_arg7)).trans (biasOut_at3 m ρ c)
theorem biasOut_at5 (c : Dev nD) : W5 m ρ c (Proc.devRef .tc main_arg7) = m ((c : Thread nD τ).loc main_arg7) :=
  (show W5 m ρ c (Proc.devRef .tc main_arg7) = W4 m ρ c (Proc.devRef .tc main_arg7) from (W5_of_ne m ρ c main_arg7 (by decide))).trans (biasOut_at4 m ρ c)
theorem biasOut_at6 (c : Dev nD) : W6 m ρ c (Proc.devRef .tc main_arg7) = m ((c : Thread nD τ).loc main_arg7) :=
  (show W6 m ρ c (Proc.devRef .tc main_arg7) = W5 m ρ c (Proc.devRef .tc main_arg7) from (by kept_by hostOps2 main_arg7)).trans (biasOut_at5 m ρ c)
theorem biasOut_at7 (c : Dev nD) : W7 m ρ c (Proc.devRef .tc main_arg7) = m ((c : Thread nD τ).loc main_arg7) :=
  (show W7 m ρ c (Proc.devRef .tc main_arg7) = W6 m ρ c (Proc.devRef .tc main_arg7) from (by kept_by hostOps2_1 main_arg7)).trans (biasOut_at6 m ρ c)
theorem biasOut_at8 (c : Dev nD) : W8 m ρ c (Proc.devRef .tc main_arg7) = m ((c : Thread nD τ).loc main_arg7) :=
  (show W8 m ρ c (Proc.devRef .tc main_arg7) = W7 m ρ c (Proc.devRef .tc main_arg7) from (W8_of_ne m ρ c main_arg7 (by decide))).trans (biasOut_at7 m ρ c)
theorem biasOut_at9 (c : Dev nD) : W9 m ρ c (Proc.devRef .tc main_arg7) = m ((c : Thread nD τ).loc main_arg7) :=
  (show W9 m ρ c (Proc.devRef .tc main_arg7) = W8 m ρ c (Proc.devRef .tc main_arg7) from (by kept_by hostOps3 main_arg7)).trans (biasOut_at8 m ρ c)
theorem biasOut_at10 (c : Dev nD) : W10 m ρ c (Proc.devRef .tc main_arg7) = m ((c : Thread nD τ).loc main_arg7) :=
  (show W10 m ρ c (Proc.devRef .tc main_arg7) = W9 m ρ c (Proc.devRef .tc main_arg7) from (by kept_by hostOps3_1 main_arg7)).trans (biasOut_at9 m ρ c)
theorem biasOut_at11 (c : Dev nD) : W11 m ρ c (Proc.devRef .tc main_arg7) = m ((c : Thread nD τ).loc main_arg7) :=
  (show W11 m ρ c (Proc.devRef .tc main_arg7) = W10 m ρ c (Proc.devRef .tc main_arg7) from (W11_of_ne m ρ c main_arg7 (by decide))).trans (biasOut_at10 m ρ c)
theorem biasOut_at12 (c : Dev nD) : W12 m ρ c (Proc.devRef .tc main_arg7) = m ((c : Thread nD τ).loc main_arg7) :=
  (show W12 m ρ c (Proc.devRef .tc main_arg7) = W11 m ρ c (Proc.devRef .tc main_arg7) from (by kept_by hostOps4 main_arg7)).trans (biasOut_at11 m ρ c)

theorem sources_at1 (c : Dev nD) : (W1 m ρ c (Proc.devRef .tc main_v1) : IVec S600000 32) = sources (m ((c : Thread nD τ).loc main_arg1)) :=
  split_sources (W0 m ρ c)
theorem sources_at2 (c : Dev nD) : (W2 m ρ c (Proc.devRef .tc main_v1) : IVec S600000 32) = sources (m ((c : Thread nD τ).loc main_arg1)) :=
  (show W2 m ρ c (Proc.devRef .tc main_v1) = W1 m ρ c (Proc.devRef .tc main_v1) from (W2_of_ne m ρ c main_v1 (by decide))).trans (sources_at1 m ρ c)
theorem sources_at3 (c : Dev nD) : (W3 m ρ c (Proc.devRef .tc main_v1) : IVec S600000 32) = sources (m ((c : Thread nD τ).loc main_arg1)) :=
  (show W3 m ρ c (Proc.devRef .tc main_v1) = W2 m ρ c (Proc.devRef .tc main_v1) from (by kept_by hostOps1 main_v1)).trans (sources_at2 m ρ c)
theorem sources_at4 (c : Dev nD) : (W4 m ρ c (Proc.devRef .tc main_v1) : IVec S600000 32) = sources (m ((c : Thread nD τ).loc main_arg1)) :=
  (show W4 m ρ c (Proc.devRef .tc main_v1) = W3 m ρ c (Proc.devRef .tc main_v1) from (by kept_by hostOps1_1 main_v1)).trans (sources_at3 m ρ c)
theorem sources_at5 (c : Dev nD) : (W5 m ρ c (Proc.devRef .tc main_v1) : IVec S600000 32) = sources (m ((c : Thread nD τ).loc main_arg1)) :=
  (show W5 m ρ c (Proc.devRef .tc main_v1) = W4 m ρ c (Proc.devRef .tc main_v1) from (W5_of_ne m ρ c main_v1 (by decide))).trans (sources_at4 m ρ c)
theorem sources_at6 (c : Dev nD) : (W6 m ρ c (Proc.devRef .tc main_v1) : IVec S600000 32) = sources (m ((c : Thread nD τ).loc main_arg1)) :=
  (show W6 m ρ c (Proc.devRef .tc main_v1) = W5 m ρ c (Proc.devRef .tc main_v1) from (by kept_by hostOps2 main_v1)).trans (sources_at5 m ρ c)
theorem sources_at7 (c : Dev nD) : (W7 m ρ c (Proc.devRef .tc main_v1) : IVec S600000 32) = sources (m ((c : Thread nD τ).loc main_arg1)) :=
  (show W7 m ρ c (Proc.devRef .tc main_v1) = W6 m ρ c (Proc.devRef .tc main_v1) from (by kept_by hostOps2_1 main_v1)).trans (sources_at6 m ρ c)
theorem sources_at8 (c : Dev nD) : (W8 m ρ c (Proc.devRef .tc main_v1) : IVec S600000 32) = sources (m ((c : Thread nD τ).loc main_arg1)) :=
  (show W8 m ρ c (Proc.devRef .tc main_v1) = W7 m ρ c (Proc.devRef .tc main_v1) from (W8_of_ne m ρ c main_v1 (by decide))).trans (sources_at7 m ρ c)
theorem sources_at9 (c : Dev nD) : (W9 m ρ c (Proc.devRef .tc main_v1) : IVec S600000 32) = sources (m ((c : Thread nD τ).loc main_arg1)) :=
  (show W9 m ρ c (Proc.devRef .tc main_v1) = W8 m ρ c (Proc.devRef .tc main_v1) from (by kept_by hostOps3 main_v1)).trans (sources_at8 m ρ c)
theorem sources_at10 (c : Dev nD) : (W10 m ρ c (Proc.devRef .tc main_v1) : IVec S600000 32) = sources (m ((c : Thread nD τ).loc main_arg1)) :=
  (show W10 m ρ c (Proc.devRef .tc main_v1) = W9 m ρ c (Proc.devRef .tc main_v1) from (by kept_by hostOps3_1 main_v1)).trans (sources_at9 m ρ c)
theorem sources_at11 (c : Dev nD) : (W11 m ρ c (Proc.devRef .tc main_v1) : IVec S600000 32) = sources (m ((c : Thread nD τ).loc main_arg1)) :=
  (show W11 m ρ c (Proc.devRef .tc main_v1) = W10 m ρ c (Proc.devRef .tc main_v1) from (W11_of_ne m ρ c main_v1 (by decide))).trans (sources_at10 m ρ c)

theorem destinations_at1 (c : Dev nD) : (W1 m ρ c (Proc.devRef .tc main_v3) : IVec S600000 32) = destinations (m ((c : Thread nD τ).loc main_arg1)) :=
  split_destinations (W0 m ρ c)
theorem destinations_at2 (c : Dev nD) : (W2 m ρ c (Proc.devRef .tc main_v3) : IVec S600000 32) = destinations (m ((c : Thread nD τ).loc main_arg1)) :=
  (show W2 m ρ c (Proc.devRef .tc main_v3) = W1 m ρ c (Proc.devRef .tc main_v3) from (W2_of_ne m ρ c main_v3 (by decide))).trans (destinations_at1 m ρ c)
theorem destinations_at3 (c : Dev nD) : (W3 m ρ c (Proc.devRef .tc main_v3) : IVec S600000 32) = destinations (m ((c : Thread nD τ).loc main_arg1)) :=
  (show W3 m ρ c (Proc.devRef .tc main_v3) = W2 m ρ c (Proc.devRef .tc main_v3) from (by kept_by hostOps1 main_v3)).trans (destinations_at2 m ρ c)
theorem destinations_at4 (c : Dev nD) : (W4 m ρ c (Proc.devRef .tc main_v3) : IVec S600000 32) = destinations (m ((c : Thread nD τ).loc main_arg1)) :=
  (show W4 m ρ c (Proc.devRef .tc main_v3) = W3 m ρ c (Proc.devRef .tc main_v3) from (by kept_by hostOps1_1 main_v3)).trans (destinations_at3 m ρ c)
theorem destinations_at5 (c : Dev nD) : (W5 m ρ c (Proc.devRef .tc main_v3) : IVec S600000 32) = destinations (m ((c : Thread nD τ).loc main_arg1)) :=
  (show W5 m ρ c (Proc.devRef .tc main_v3) = W4 m ρ c (Proc.devRef .tc main_v3) from (W5_of_ne m ρ c main_v3 (by decide))).trans (destinations_at4 m ρ c)
theorem destinations_at6 (c : Dev nD) : (W6 m ρ c (Proc.devRef .tc main_v3) : IVec S600000 32) = destinations (m ((c : Thread nD τ).loc main_arg1)) :=
  (show W6 m ρ c (Proc.devRef .tc main_v3) = W5 m ρ c (Proc.devRef .tc main_v3) from (by kept_by hostOps2 main_v3)).trans (destinations_at5 m ρ c)
theorem destinations_at7 (c : Dev nD) : (W7 m ρ c (Proc.devRef .tc main_v3) : IVec S600000 32) = destinations (m ((c : Thread nD τ).loc main_arg1)) :=
  (show W7 m ρ c (Proc.devRef .tc main_v3) = W6 m ρ c (Proc.devRef .tc main_v3) from (by kept_by hostOps2_1 main_v3)).trans (destinations_at6 m ρ c)
theorem destinations_at8 (c : Dev nD) : (W8 m ρ c (Proc.devRef .tc main_v3) : IVec S600000 32) = destinations (m ((c : Thread nD τ).loc main_arg1)) :=
  (show W8 m ρ c (Proc.devRef .tc main_v3) = W7 m ρ c (Proc.devRef .tc main_v3) from (W8_of_ne m ρ c main_v3 (by decide))).trans (destinations_at7 m ρ c)
theorem destinations_at9 (c : Dev nD) : (W9 m ρ c (Proc.devRef .tc main_v3) : IVec S600000 32) = destinations (m ((c : Thread nD τ).loc main_arg1)) :=
  (show W9 m ρ c (Proc.devRef .tc main_v3) = W8 m ρ c (Proc.devRef .tc main_v3) from (by kept_by hostOps3 main_v3)).trans (destinations_at8 m ρ c)
theorem destinations_at10 (c : Dev nD) : (W10 m ρ c (Proc.devRef .tc main_v3) : IVec S600000 32) = destinations (m ((c : Thread nD τ).loc main_arg1)) :=
  (show W10 m ρ c (Proc.devRef .tc main_v3) = W9 m ρ c (Proc.devRef .tc main_v3) from (by kept_by hostOps3_1 main_v3)).trans (destinations_at9 m ρ c)
theorem destinations_at11 (c : Dev nD) : (W11 m ρ c (Proc.devRef .tc main_v3) : IVec S600000 32) = destinations (m ((c : Thread nD τ).loc main_arg1)) :=
  (show W11 m ρ c (Proc.devRef .tc main_v3) = W10 m ρ c (Proc.devRef .tc main_v3) from (W11_of_ne m ρ c main_v3 (by decide))).trans (destinations_at10 m ρ c)
theorem destinations_at12 (c : Dev nD) : (W12 m ρ c (Proc.devRef .tc main_v3) : IVec S600000 32) = destinations (m ((c : Thread nD τ).loc main_arg1)) :=
  (show W12 m ρ c (Proc.devRef .tc main_v3) = W11 m ρ c (Proc.devRef .tc main_v3) from (by kept_by hostOps4 main_v3)).trans (destinations_at11 m ρ c)

end Cert.KernelIdeal.Unchanged

end
-- ==== Proof.Threaded.lean ====
/-
  The kernel's program, threaded: what each segment leaves, from the launch to the result.

  The first call leaves the linear layer of the features. Between two calls the host operations leave the neighbour
  sum of what the call before left — the kept rows are the gathered rows, every source being in range. Each later call
  leaves the linear layer of the neighbour sum before it, the third and the fifth after its positive part. The weights
  and biases each call reads are the launch contents (no segment writes an argument), and a bias laid out as one row,
  read at its only row, is the bias.
-/
import proofs.«422275_j50749333569685_1_alg».proof.Proof.Gen.KernelIdeal.Frame
import proofs.«422275_j50749333569685_1_alg».proof.Proof.Region0
import proofs.«422275_j50749333569685_1_alg».proof.Proof.Region1
import proofs.«422275_j50749333569685_1_alg».proof.Proof.Region2
import proofs.«422275_j50749333569685_1_alg».proof.Proof.Region3
import proofs.«422275_j50749333569685_1_alg».proof.Proof.Region4
import proofs.«422275_j50749333569685_1_alg».proof.Proof.HostStretch
import proofs.«422275_j50749333569685_1_alg».proof.Proof.Unchanged

set_option maxRecDepth 16384

noncomputable section

namespace Cert.KernelIdeal.Threaded

open Cert.KernelIdeal Cert.KernelIdeal.Gen Cert.KernelIdeal.BodyLinear Cert.KernelIdeal.HostStretch Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

/-- The launch contents, by what they are. -/
abbrev features (c : Dev nD) : S50000x128.Idx → EReal := m ((c : Thread nD τ).loc main_arg0)
abbrev edges (c : Dev nD) : IVec S2x600000 32 := m ((c : Thread nD τ).loc main_arg1)
abbrev weights1 (c : Dev nD) : S128x128.Idx → EReal := m ((c : Thread nD τ).loc main_arg2)
abbrev bias1 (c : Dev nD) : S128.Idx → EReal := m ((c : Thread nD τ).loc main_arg3)
abbrev weights2 (c : Dev nD) : S128x128.Idx → EReal := m ((c : Thread nD τ).loc main_arg4)
abbrev bias2 (c : Dev nD) : S128.Idx → EReal := m ((c : Thread nD τ).loc main_arg5)
abbrev weightsOut (c : Dev nD) : S128x64.Idx → EReal := m ((c : Thread nD τ).loc main_arg6)
abbrev biasOut (c : Dev nD) : S64.Idx → EReal := m ((c : Thread nD τ).loc main_arg7)

/-- Every source index of the launch's edge list is between -50000 and 49999. -/
def Admitted : Prop := ∀ (c : Dev nD) (e : S600000.Idx),
  IntOp.cmpi .sge (sources (edges m c) e) 4294917296#32 = 1#1 ∧ IntOp.cmpi .slt (sources (edges m c) e) 50000#32 = 1#1

/-- The stages, from the features to the result. -/
def hidden1 (c : Dev nD) : S50000x128.Idx → EReal := Cert.Pool.linear (features m c) (weights1 m c) (bias1 m c)
def pooled1 (c : Dev nD) : S50000x128.Idx → EReal := neighbourSum (sources (edges m c)) (destinations (edges m c)) (hidden1 m c)
def hidden2 (c : Dev nD) : S50000x128.Idx → EReal := Cert.Pool.linear (pooled1 m c) (weights1 m c) (bias1 m c)
def pooled2 (c : Dev nD) : S50000x128.Idx → EReal := neighbourSum (sources (edges m c)) (destinations (edges m c)) (hidden2 m c)
def hidden3 (c : Dev nD) : S50000x128.Idx → EReal := Cert.Pool.linear (Cert.Pool.positivePart (pooled2 m c)) (weights2 m c) (bias2 m c)
def pooled3 (c : Dev nD) : S50000x128.Idx → EReal := neighbourSum (sources (edges m c)) (destinations (edges m c)) (hidden3 m c)
def hidden4 (c : Dev nD) : S50000x128.Idx → EReal := Cert.Pool.linear (pooled3 m c) (weights2 m c) (bias2 m c)
def pooled4 (c : Dev nD) : S50000x128.Idx → EReal := neighbourSum (sources (edges m c)) (destinations (edges m c)) (hidden4 m c)
def result (c : Dev nD) : S50000x64.Idx → EReal := Cert.Pool.linear (Cert.Pool.positivePart (pooled4 m c)) (weightsOut m c) (biasOut m c)

/-- Equal matrices, weights and biases have equal linear layers. -/
theorem linear_congr {n k : Nat} {X X' : (⟨2, ![n, 128]⟩ : Shape).Idx → EReal} {W W' : (⟨2, ![128, k]⟩ : Shape).Idx → EReal}
    {b b' : (⟨1, ![k]⟩ : Shape).Idx → EReal} (hX : X = X') (hW : W = W') (hb : b = b') :
    Cert.Pool.linear X W b = Cert.Pool.linear X' W' b' := by subst hX hW hb; rfl

/-- A bias laid out as one row, read at that row, is the bias. -/
theorem bias_entry128 (b : S128.Idx → EReal) (j : S128.Idx) : shapeCast S1x128 b shapeCasts_S128_S1x128 (biasRow j) = b j :=
  shapeCast_apply b shapeCasts_S128_S1x128 (biasRow j) j (by
    rw [Shape.rowMajor_val_one, Shape.rowMajor_val_two]
    show (j 0).val = 0 * 128 + (j 0).val
    omega)
theorem bias_entry64 (b : S64.Idx → EReal) (j : S64.Idx) : shapeCast S1x64 b shapeCasts_S64_S1x64 (biasRow j) = b j :=
  shapeCast_apply b shapeCasts_S64_S1x64 (biasRow j) j (by
    rw [Shape.rowMajor_val_one, Shape.rowMajor_val_two]
    show (j 0).val = 0 * 64 + (j 0).val
    omega)

/-- The array the first call leaves. -/
theorem layer_out0 (c : Dev nD) : (W2 m ρ c (Proc.devRef .tc main_v5) : S50000x128.Idx → EReal) = hidden1 m c := by
  refine (W2_arr m ρ c 3).trans ((Region0.array (V1 m ρ) c).trans ?_)
  unfold hidden1
  refine linear_congr (Unchanged.features_at1 m ρ c) (Unchanged.weights1_at1 m ρ c) (funext fun j => ?_)
  show (V1 m ρ c main_v4 : S1x128.Idx → EReal) (biasRow j) = bias1 m c j
  rw [show (V1 m ρ c main_v4 : S1x128.Idx → EReal) = shapeCast S1x128 (W0 m ρ c (Proc.devRef .tc main_arg3)) shapeCasts_S128_S1x128 from bias_row0 (W0 m ρ c)]
  rw [Unchanged.bias1_at0 m ρ c]
  exact bias_entry128 _ j

/-- The neighbour sum before the second call. -/
theorem sum_out1 (hs : Admitted m) (c : Dev nD) : (W4 m ρ c (Proc.devRef .tc main_v9) : S50000x128.Idx → EReal) = pooled1 m c := by
  have e1 : (W4 m ρ c (Proc.devRef .tc main_v9) : FVec Ideal S50000x128 .f32)
      = addedInto (W3 m ρ c (Proc.devRef .tc main_v3)) (W3 m ρ c (Proc.devRef .tc main_v6)) := summed1 (W3 m ρ c)
  have e2 : (W3 m ρ c (Proc.devRef .tc main_v6) : FVec Ideal S600000x128 .f32)
      = keptRows (W2 m ρ c (Proc.devRef .tc main_v1)) (W2 m ρ c (Proc.devRef .tc main_v5)) := kept1 (W2 m ρ c)
  have e3 : (W2 m ρ c (Proc.devRef .tc main_v5) : FVec Ideal S50000x128 .f32) = hidden1 m c := layer_out0 m ρ c
  refine e1.trans ?_
  rw [e2, e3, Unchanged.destinations_at3 m ρ c, Unchanged.sources_at2 m ρ c, keptRows_eq _ _ (hs c)]
  rfl

/-- The array the second call leaves. -/
theorem layer_out1 (hs : Admitted m) (c : Dev nD) : (W5 m ρ c (Proc.devRef .tc main_v11) : S50000x128.Idx → EReal) = hidden2 m c := by
  refine (W5_arr m ρ c 3).trans ((Region1.array (V4 m ρ) c).trans ?_)
  unfold hidden2
  refine linear_congr (sum_out1 m ρ hs c) (Unchanged.weights1_at4 m ρ c) (funext fun j => ?_)
  show (V4 m ρ c main_v10 : S1x128.Idx → EReal) (biasRow j) = bias1 m c j
  rw [show (V4 m ρ c main_v10 : S1x128.Idx → EReal) = shapeCast S1x128 (W3 m ρ c (Proc.devRef .tc main_arg3)) shapeCasts_S128_S1x128 from bias_row1 (W3 m ρ c)]
  rw [Unchanged.bias1_at3 m ρ c]
  exact bias_entry128 _ j

/-- The neighbour sum before the third call. -/
theorem sum_out2 (hs : Admitted m) (c : Dev nD) : (W7 m ρ c (Proc.devRef .tc main_v15) : S50000x128.Idx → EReal) = pooled2 m c := by
  have e1 : (W7 m ρ c (Proc.devRef .tc main_v15) : FVec Ideal S50000x128 .f32)
      = addedInto (W6 m ρ c (Proc.devRef .tc main_v3)) (W6 m ρ c (Proc.devRef .tc main_v12)) := summed2 (W6 m ρ c)
  have e2 : (W6 m ρ c (Proc.devRef .tc main_v12) : FVec Ideal S600000x128 .f32)
      = keptRows (W5 m ρ c (Proc.devRef .tc main_v1)) (W5 m ρ c (Proc.devRef .tc main_v11)) := kept2 (W5 m ρ c)
  have e3 : (W5 m ρ c (Proc.devRef .tc main_v11) : FVec Ideal S50000x128 .f32) = hidden2 m c := layer_out1 m ρ hs c
  refine e1.trans ?_
  rw [e2, e3, Unchanged.destinations_at6 m ρ c, Unchanged.sources_at5 m ρ c, keptRows_eq _ _ (hs c)]
  rfl

/-- The array the third call leaves. -/
theorem layer_out2 (hs : Admitted m) (c : Dev nD) : (W8 m ρ c (Proc.devRef .tc main_v17) : S50000x128.Idx → EReal) = hidden3 m c := by
  refine (W8_arr m ρ c 3).trans ((Region2.array (V7 m ρ) c).trans ?_)
  unfold hidden3
  refine linear_congr (congrArg Cert.Pool.positivePart (sum_out2 m ρ hs c)) (Unchanged.weights2_at7 m ρ c) (funext fun j => ?_)
  show (V7 m ρ c main_v16 : S1x128.Idx → EReal) (biasRow j) = bias2 m c j
  rw [show (V7 m ρ c main_v16 : S1x128.Idx → EReal) = shapeCast S1x128 (W6 m ρ c (Proc.devRef .tc main_arg5)) shapeCasts_S128_S1x128 from bias_row2 (W6 m ρ c)]
  rw [Unchanged.bias2_at6 m ρ c]
  exact bias_entry128 _ j

/-- The neighbour sum before the fourth call. -/
theorem sum_out3 (hs : Admitted m) (c : Dev nD) : (W10 m ρ c (Proc.devRef .tc main_v21) : S50000x128.Idx → EReal) = pooled3 m c := by
  have e1 : (W10 m ρ c (Proc.devRef .tc main_v21) : FVec Ideal S50000x128 .f32)
      = addedInto (W9 m ρ c (Proc.devRef .tc main_v3)) (W9 m ρ c (Proc.devRef .tc main_v18)) := summed3 (W9 m ρ c)
  have e2 : (W9 m ρ c (Proc.devRef .tc main_v18) : FVec Ideal S600000x128 .f32)
      = keptRows (W8 m ρ c (Proc.devRef .tc main_v1)) (W8 m ρ c (Proc.devRef .tc main_v17)) := kept3 (W8 m ρ c)
  have e3 : (W8 m ρ c (Proc.devRef .tc main_v17) : FVec Ideal S50000x128 .f32) = hidden3 m c := layer_out2 m ρ hs c
  refine e1.trans ?_
  rw [e2, e3, Unchanged.destinations_at9 m ρ c, Unchanged.sources_at8 m ρ c, keptRows_eq _ _ (hs c)]
  rfl

/-- The array the fourth call leaves. -/
theorem layer_out3 (hs : Admitted m) (c : Dev nD) : (W11 m ρ c (Proc.devRef .tc main_v23) : S50000x128.Idx → EReal) = hidden4 m c := by
  refine (W11_arr m ρ c 3).trans ((Region3.array (V10 m ρ) c).trans ?_)
  unfold hidden4
  refine linear_congr (sum_out3 m ρ hs c) (Unchanged.weights2_at10 m ρ c) (funext fun j => ?_)
  show (V10 m ρ c main_v22 : S1x128.Idx → EReal) (biasRow j) = bias2 m c j
  rw [show (V10 m ρ c main_v22 : S1x128.Idx → EReal) = shapeCast S1x128 (W9 m ρ c (Proc.devRef .tc main_arg5)) shapeCasts_S128_S1x128 from bias_row3 (W9 m ρ c)]
  rw [Unchanged.bias2_at9 m ρ c]
  exact bias_entry128 _ j

/-- The neighbour sum before the fifth call. -/
theorem sum_out4 (hs : Admitted m) (c : Dev nD) : (W13 m ρ c (Proc.devRef .tc main_v27) : S50000x128.Idx → EReal) = pooled4 m c := by
  have e1 : (W13 m ρ c (Proc.devRef .tc main_v27) : FVec Ideal S50000x128 .f32)
      = addedInto (W12 m ρ c (Proc.devRef .tc main_v3)) (W12 m ρ c (Proc.devRef .tc main_v24)) := summed4 (W12 m ρ c)
  have e2 : (W12 m ρ c (Proc.devRef .tc main_v24) : FVec Ideal S600000x128 .f32)
      = keptRows (W11 m ρ c (Proc.devRef .tc main_v1)) (W11 m ρ c (Proc.devRef .tc main_v23)) := kept4 (W11 m ρ c)
  have e3 : (W11 m ρ c (Proc.devRef .tc main_v23) : FVec Ideal S50000x128 .f32) = hidden4 m c := layer_out3 m ρ hs c
  refine e1.trans ?_
  rw [e2, e3, Unchanged.destinations_at12 m ρ c, Unchanged.sources_at11 m ρ c, keptRows_eq _ _ (hs c)]
  rfl

/-- The array the fifth call leaves. -/
theorem layer_out4 (hs : Admitted m) (c : Dev nD) : (W14 m ρ c (Proc.devRef .tc main_v29) : S50000x64.Idx → EReal) = result m c := by
  refine (W14_arr m ρ c 3).trans ((Region4.array (V13 m ρ) c).trans ?_)
  unfold result
  refine linear_congr (congrArg Cert.Pool.positivePart (sum_out4 m ρ hs c)) (Unchanged.weightsOut_at13 m ρ c) (funext fun j => ?_)
  show (V13 m ρ c main_v28 : S1x64.Idx → EReal) (biasRow j) = biasOut m c j
  rw [show (V13 m ρ c main_v28 : S1x64.Idx → EReal) = shapeCast S1x64 (W12 m ρ c (Proc.devRef .tc main_arg7)) shapeCasts_S64_S1x64 from bias_row4 (W12 m ρ c)]
  rw [Unchanged.biasOut_at12 m ρ c]
  exact bias_entry64 _ j

end Cert.KernelIdeal.Threaded

end
-- ==== Proof.RefStages.lean ====
/-
  The reference, stage by stage, as mathematics. It alternates two maps of a 50000-row matrix: the linear layer
  `X · W + b` (a `dot_general` and a broadcast bias, read index by index as the sum over `k`), and the NEIGHBOUR SUM,
  which gathers row `src e` for every edge `e` and adds it into row `dst e` of a zero matrix. The neighbour sum is kept
  whole, as one function of the edge list and the matrix: both programs apply it, and nothing is needed of it but that
  equal matrices have equal neighbour sums. Twice the positive part is taken between a neighbour sum and the next layer.
-/
import proofs.«422275_j50749333569685_1_alg».proof.Proof.Gen.ReferenceIdeal.Read
import proofs.«422275_j50749333569685_1_alg».proof.Proof.Pool

noncomputable section

namespace Cert.ReferenceIdeal.Stages

open Cert.ReferenceIdeal Cert.ReferenceIdeal.Gen Cert.ReferenceIdeal.Read Idealize.ShloMosaic Idealize.ShloMosaic.TcCoe

/-- The neighbour sum of a matrix `M` along the edge list `E`: row `src e` of `M` (a negative `src e` counted from the end)
    added into row `dst e`, over all edges. -/
def neighbourSum (E : IVec S2x600000 32) (M : FVec Ideal S50000x128 .f32) : FVec Ideal S50000x128 .f32 :=
  Host.scatterAdd scatter_S50000x128_S600000x1_S600000x128_1_0_0_1 (val_main_v15 (F := Ideal)) (val_main_v16 (F := Ideal) E)
    (Host.gather gather_S50000x128_S600000x1_S600000x128_1_0_n_n_0_1_1128 M (val_main_v13 (F := Ideal) E))

/-- The first linear layer. -/
theorem layer1 (x0 : FVec Ideal S50000x128 .f32) (x2 : FVec Ideal S128x128 .f32) (x3 : FVec Ideal S128 .f32) :
    val_main_v7 (F := Ideal) x0 x2 x3 = Cert.Pool.linear x0 x2 x3 := by
  funext i
  rw [val_main_v7_apply, val_main_v4_apply, val_main_v6_apply, val_main_v5_apply]
  have el : ∀ k : Fin 128, lidx_main_v4 i k = Cert.Pool.atRow i k := fun k => funext fun a => by
    match a with
    | ⟨0, _⟩ => rfl
    | ⟨1, _⟩ => rfl
  have er : ∀ k : Fin 128, ridx_main_v4 i k = Cert.Pool.atCol i k := fun k => funext fun a => by
    match a with
    | ⟨0, _⟩ => rfl
    | ⟨1, _⟩ => rfl
  have eb : idx_main_v5 (idx_main_v6 i) = Cert.Pool.atBias i := funext fun a => by
    match a with
    | ⟨0, _⟩ => rfl
  simp only [el, er, eb]
  rfl

theorem sum1 (x0 : FVec Ideal S50000x128 .f32) (x1 : IVec S2x600000 32) (x2 : FVec Ideal S128x128 .f32) (x3 : FVec Ideal S128 .f32) :
    val_main_v17 (F := Ideal) x0 x1 x2 x3 = neighbourSum x1 (val_main_v7 (F := Ideal) x0 x2 x3) := by
  unfold neighbourSum val_main_v17 val_main_v14
  rfl

/-- The second linear layer, of the first neighbour sum. -/
theorem layer2 (x0 : FVec Ideal S50000x128 .f32) (x1 : IVec S2x600000 32) (x2 : FVec Ideal S128x128 .f32) (x3 : FVec Ideal S128 .f32) :
    val_main_v21 (F := Ideal) x0 x1 x2 x3 = Cert.Pool.linear (val_main_v17 (F := Ideal) x0 x1 x2 x3) x2 x3 := by
  funext i
  rw [val_main_v21_apply, val_main_v18_apply, val_main_v20_apply, val_main_v19_apply]
  have el : ∀ k : Fin 128, lidx_main_v18 i k = Cert.Pool.atRow i k := fun k => funext fun a => by
    match a with
    | ⟨0, _⟩ => rfl
    | ⟨1, _⟩ => rfl
  have er : ∀ k : Fin 128, ridx_main_v18 i k = Cert.Pool.atCol i k := fun k => funext fun a => by
    match a with
    | ⟨0, _⟩ => rfl
    | ⟨1, _⟩ => rfl
  have eb : idx_main_v19 (idx_main_v20 i) = Cert.Pool.atBias i := funext fun a => by
    match a with
    | ⟨0, _⟩ => rfl
  simp only [el, er, eb]
  rfl

theorem sum2 (x0 : FVec Ideal S50000x128 .f32) (x1 : IVec S2x600000 32) (x2 : FVec Ideal S128x128 .f32) (x3 : FVec Ideal S128 .f32) :
    val_main_v31 (F := Ideal) x0 x1 x2 x3 = neighbourSum x1 (val_main_v21 (F := Ideal) x0 x1 x2 x3) := by
  unfold neighbourSum val_main_v31 val_main_v28 val_main_v29 val_main_cst_3 val_main_v30 val_main_v27 val_main_v26 val_main_v25 val_main_v24 val_main_c_2 val_main_v23 val_main_v22 val_main_c_1 val_main_v15 val_main_cst val_main_v16 val_main_v13 val_main_v12 val_main_v11 val_main_v10 val_main_c_0 val_main_v9 val_main_v8 val_main_c
  rfl

/-- The positive part of the second neighbour sum. -/
theorem positive1 (x0 : FVec Ideal S50000x128 .f32) (x1 : IVec S2x600000 32) (x2 : FVec Ideal S128x128 .f32) (x3 : FVec Ideal S128 .f32) :
    val_main_v32 (F := Ideal) x0 x1 x2 x3 = Cert.Pool.positivePart (val_main_v31 (F := Ideal) x0 x1 x2 x3) := by
  funext i
  rw [val_main_v32_apply, val_main_call0_v0_apply, val_main_call0_cst_apply]
  show max _ (Ideal.ofBits .f32 0x00000000#32) = _
  rw [Ideal.ofBits_zero_f32]
  rfl

/-- The third linear layer. -/
theorem layer3 (x0 : FVec Ideal S50000x128 .f32) (x1 : IVec S2x600000 32) (x2 : FVec Ideal S128x128 .f32) (x3 : FVec Ideal S128 .f32)
    (x4 : FVec Ideal S128x128 .f32) (x5 : FVec Ideal S128 .f32) :
    val_main_v36 (F := Ideal) x0 x1 x2 x3 x4 x5 = Cert.Pool.linear (val_main_v32 (F := Ideal) x0 x1 x2 x3) x4 x5 := by
  funext i
  rw [val_main_v36_apply, val_main_v33_apply, val_main_v35_apply, val_main_v34_apply]
  have el : ∀ k : Fin 128, lidx_main_v33 i k = Cert.Pool.atRow i k := fun k => funext fun a => by
    match a with
    | ⟨0, _⟩ => rfl
    | ⟨1, _⟩ => rfl
  have er : ∀ k : Fin 128, ridx_main_v33 i k = Cert.Pool.atCol i k := fun k => funext fun a => by
    match a with
    | ⟨0, _⟩ => rfl
    | ⟨1, _⟩ => rfl
  have eb : idx_main_v34 (idx_main_v35 i) = Cert.Pool.atBias i := funext fun a => by
    match a with
    | ⟨0, _⟩ => rfl
  simp only [el, er, eb]
  rfl

theorem sum3 (x0 : FVec Ideal S50000x128 .f32) (x1 : IVec S2x600000 32) (x2 : FVec Ideal S128x128 .f32) (x3 : FVec Ideal S128 .f32)
    (x4 : FVec Ideal S128x128 .f32) (x5 : FVec Ideal S128 .f32) :
    val_main_v46 (F := Ideal) x0 x1 x2 x3 x4 x5 = neighbourSum x1 (val_main_v36 (F := Ideal) x0 x1 x2 x3 x4 x5) := by
  unfold neighbourSum val_main_v46 val_main_v43 val_main_v44 val_main_cst_6 val_main_v45 val_main_v42 val_main_v41 val_main_v40 val_main_v39 val_main_c_5 val_main_v38 val_main_v37 val_main_c_4 val_main_v15 val_main_cst val_main_v16 val_main_v13 val_main_v12 val_main_v11 val_main_v10 val_main_c_0 val_main_v9 val_main_v8 val_main_c
  rfl

/-- The fourth linear layer. -/
theorem layer4 (x0 : FVec Ideal S50000x128 .f32) (x1 : IVec S2x600000 32) (x2 : FVec Ideal S128x128 .f32) (x3 : FVec Ideal S128 .f32)
    (x4 : FVec Ideal S128x128 .f32) (x5 : FVec Ideal S128 .f32) :
    val_main_v50 (F := Ideal) x0 x1 x2 x3 x4 x5 = Cert.Pool.linear (val_main_v46 (F := Ideal) x0 x1 x2 x3 x4 x5) x4 x5 := by
  funext i
  rw [val_main_v50_apply, val_main_v47_apply, val_main_v49_apply, val_main_v48_apply]
  have el : ∀ k : Fin 128, lidx_main_v47 i k = Cert.Pool.atRow i k := fun k => funext fun a => by
    match a with
    | ⟨0, _⟩ => rfl
    | ⟨1, _⟩ => rfl
  have er : ∀ k : Fin 128, ridx_main_v47 i k = Cert.Pool.atCol i k := fun k => funext fun a => by
    match a with
    | ⟨0, _⟩ => rfl
    | ⟨1, _⟩ => rfl
  have eb : idx_main_v48 (idx_main_v49 i) = Cert.Pool.atBias i := funext fun a => by
    match a with
    | ⟨0, _⟩ => rfl
  simp only [el, er, eb]
  rfl

theorem sum4 (x0 : FVec Ideal S50000x128 .f32) (x1 : IVec S2x600000 32) (x2 : FVec Ideal S128x128 .f32) (x3 : FVec Ideal S128 .f32)
    (x4 : FVec Ideal S128x128 .f32) (x5 : FVec Ideal S128 .f32) :
    val_main_v60 (F := Ideal) x0 x1 x2 x3 x4 x5 = neighbourSum x1 (val_main_v50 (F := Ideal) x0 x1 x2 x3 x4 x5) := by
  unfold neighbourSum val_main_v60 val_main_v57 val_main_v58 val_main_cst_9 val_main_v59 val_main_v56 val_main_v55 val_main_v54 val_main_v53 val_main_c_8 val_main_v52 val_main_v51 val_main_c_7 val_main_v15 val_main_cst val_main_v16 val_main_v13 val_main_v12 val_main_v11 val_main_v10 val_main_c_0 val_main_v9 val_main_v8 val_main_c
  rfl

/-- The positive part of the fourth neighbour sum. -/
theorem positive2 (x0 : FVec Ideal S50000x128 .f32) (x1 : IVec S2x600000 32) (x2 : FVec Ideal S128x128 .f32) (x3 : FVec Ideal S128 .f32)
    (x4 : FVec Ideal S128x128 .f32) (x5 : FVec Ideal S128 .f32) :
    val_main_v61 (F := Ideal) x0 x1 x2 x3 x4 x5 = Cert.Pool.positivePart (val_main_v60 (F := Ideal) x0 x1 x2 x3 x4 x5) := by
  funext i
  rw [val_main_v61_apply, val_main_call1_v0_apply, val_main_call1_cst_apply]
  show max _ (Ideal.ofBits .f32 0x00000000#32) = _
  rw [Ideal.ofBits_zero_f32]
  rfl

/-- The output layer, into 64 columns. -/
theorem layer5 (x0 : FVec Ideal S50000x128 .f32) (x1 : IVec S2x600000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    val_main_v65 (F := Ideal) x0 x1 x2 x3 x4 x5 x6 x7 = Cert.Pool.linear (val_main_v61 (F := Ideal) x0 x1 x2 x3 x4 x5) x6 x7 := by
  funext i
  rw [val_main_v65_apply, val_main_v62_apply, val_main_v64_apply, val_main_v63_apply]
  have el : ∀ k : Fin 128, lidx_main_v62 i k = Cert.Pool.atRow i k := fun k => funext fun a => by
    match a with
    | ⟨0, _⟩ => rfl
    | ⟨1, _⟩ => rfl
  have er : ∀ k : Fin 128, ridx_main_v62 i k = Cert.Pool.atCol i k := fun k => funext fun a => by
    match a with
    | ⟨0, _⟩ => rfl
    | ⟨1, _⟩ => rfl
  have eb : idx_main_v63 (idx_main_v64 i) = Cert.Pool.atBias i := funext fun a => by
    match a with
    | ⟨0, _⟩ => rfl
  simp only [el, er, eb]
  rfl

/-- The whole reference: five linear layers, a neighbour sum after each of the first four, the positive part before the
    third and the fifth. -/
def pooled (x0 : FVec Ideal S50000x128 .f32) (x1 : IVec S2x600000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    FVec Ideal S50000x64 .f32 :=
  Cert.Pool.linear (Cert.Pool.positivePart (neighbourSum x1 (Cert.Pool.linear (neighbourSum x1 (Cert.Pool.linear
    (Cert.Pool.positivePart (neighbourSum x1 (Cert.Pool.linear (neighbourSum x1 (Cert.Pool.linear x0 x2 x3)) x2 x3))) x4 x5)) x4 x5))) x6 x7

theorem result_eq (x0 : FVec Ideal S50000x128 .f32) (x1 : IVec S2x600000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    val_main_v65 (F := Ideal) x0 x1 x2 x3 x4 x5 x6 x7 = pooled x0 x1 x2 x3 x4 x5 x6 x7 := by
  unfold pooled
  rw [layer5, positive2, sum4, layer4, sum3, layer3, positive1, sum2, layer2, sum1, layer1]

end Cert.ReferenceIdeal.Stages

end
-- ==== Proof.SourcesAdmitted.lean ====
/-
  What the precondition says of the edge list. The precondition is a conjunction: every float input is finite, and every
  source index — every entry of the first row of the edge list — is at least -50000 and less than 50000. Only the
  last two conjuncts are opened here: they are the last two factors of the printed conjunction, each a conjunction over
  all edges of one signed comparison, so each gives that comparison at every edge.
-/
import proofs.«422275_j50749333569685_1_alg».proof.Proof.Gen.Pre_finite_inputs
import Idealize.ShloMosaic.Lib.Affine
import Idealize.ShloMosaic.Lib.ReduceAll
import Idealize.ShloMosaic.Lib.ValueIdx
import Idealize.ShloMosaic.Lib.Pipeline.Value

noncomputable section

namespace Cert.Pre_finite_inputs.Admitted

open Cert.Pre_finite_inputs Cert.Pre_finite_inputs.Gen Idealize.ShloMosaic

instance : Subsingleton S_.Idx := ⟨fun a b => funext fun d => d.elim0⟩

/-- The first row of the edge list. -/
def sources (E : IVec S2x600000 32) : IVec S600000 32 :=
  shapeCast S600000 (extractStridedSlice S1x600000 ![0, 0] E slices_S2x600000_S1x600000_0_0) shapeCasts_S1x600000_S600000

/-- Under the precondition every source index is between -50000 and 49999, as signed 32-bit words. -/
theorem sources_in_range {F : FTy → Type} [FloatOps F] (a0 : FVec F S50000x128 .f32) (a1 : IVec S2x600000 32) (a2 : FVec F S128x128 .f32)
    (a3 : FVec F S128 .f32) (a4 : FVec F S128x128 .f32) (a5 : FVec F S128 .f32) (a6 : FVec F S128x64 .f32) (a7 : FVec F S64 .f32)
    (h : fn (F := F) a0 a1 a2 a3 a4 a5 a6 a7 = fun _ => 1#1) (e : S600000.Idx) :
    IntOp.cmpi .sge (sources a1 e) 4294917296#32 = 1#1 ∧ IntOp.cmpi .slt (sources a1 e) 50000#32 = 1#1 := by
  have h0 := congrFun h ValueIdx.ix0
  dsimp only [fn, fn_part1, fn_part2] at h0
  obtain ⟨h1, hB⟩ := IntOp.andi_eq_one.1 h0
  obtain ⟨_, hA⟩ := IntOp.andi_eq_one.1 h1
  have gA := Host.reduce_andi_all _ _ _ _ ValueIdx.ix0 hA e
  have gB := Host.reduce_andi_all _ _ _ _ ValueIdx.ix0 hB e
  constructor
  · have : broadcastInDim S600000 ![] bcast_S_S600000 (constantI S_ 32 4294917296#32) e = 4294917296#32 :=
      broadcastInDim_apply _ bcast_S_S600000 (constantI S_ 32 4294917296#32) e (fun a => a.elim0) (fun a => a.elim0)
    rw [← this]; exact gA
  · have : broadcastInDim S600000 ![] bcast_S_S600000 (constantI S_ 32 50000#32) e = 50000#32 :=
      broadcastInDim_apply _ bcast_S_S600000 (constantI S_ 32 50000#32) e (fun a => a.elim0) (fun a => a.elim0)
    rw [← this]; exact gB

end Cert.Pre_finite_inputs.Admitted

end
-- ==== Proof.Agreement.lean ====
/-
  The two programs end with equal results.

  Both compute, from the same eight arrays: a linear layer, a neighbour sum, a linear layer, a neighbour sum, the positive
  part, a linear layer, a neighbour sum, a linear layer, a neighbour sum, the positive part, and a linear layer into 64
  columns. The linear layers and the positive parts are one function of their arguments on both sides (the kernel's
  tiling into ten blocks of rows and its change of float format before each product do not show on the extended reals).
  The neighbour sums are one function too: the same gather by the moved source column and the same scatter-add by the
  destination column, each program with its own copy of the dimension records; the kernel's range test on the gathered
  rows is true on every edge, the precondition putting every source index between -50000 and 49999. No law of the
  extended reals beyond the definitions is used, and of the precondition only the two conjuncts on the source indices.
-/
import proofs.«422275_j50749333569685_1_alg».proof.Defs
import proofs.«422275_j50749333569685_1_alg».proof.Proof.Gen.ReferenceIdeal.Run
import proofs.«422275_j50749333569685_1_alg».proof.Proof.Gen.ReferenceIdeal.Read
import proofs.«422275_j50749333569685_1_alg».proof.Proof.Gen.Pre_finite_inputs
import proofs.«422275_j50749333569685_1_alg».proof.Proof.Threaded
import proofs.«422275_j50749333569685_1_alg».proof.Proof.RefStages
import proofs.«422275_j50749333569685_1_alg».proof.Proof.KernelRun
import proofs.«422275_j50749333569685_1_alg».proof.Proof.SourcesAdmitted

set_option maxRecDepth 16384

noncomputable section

namespace Cert.Agreement

open Idealize.ShloMosaic Idealize.ShloMosaic.TcCoe Idealize.SL.Sem
open Cert.KernelIdeal.Threaded Cert.KernelIdeal.HostStretch Cert.KernelIdeal.SourceRange

/-- The reference's neighbour sum is the kernel's plain one: the same operations on the same two rows of the edge list. -/
theorem neighbour_same (E : IVec Cert.KernelIdeal.S2x600000 32) (M : FVec Ideal Cert.KernelIdeal.S50000x128 .f32) :
    Cert.ReferenceIdeal.Stages.neighbourSum E M = neighbourSum (sources E) (destinations E) M := by
  unfold Cert.ReferenceIdeal.Stages.neighbourSum neighbourSum addedInto startColumn moved sources destinations
    Cert.ReferenceIdeal.Read.val_main_v15 Cert.ReferenceIdeal.Read.val_main_cst Cert.ReferenceIdeal.Read.val_main_v16
    Cert.ReferenceIdeal.Read.val_main_v3 Cert.ReferenceIdeal.Read.val_main_v2 Cert.ReferenceIdeal.Read.val_main_v13
    Cert.ReferenceIdeal.Read.val_main_v12 Cert.ReferenceIdeal.Read.val_main_v11 Cert.ReferenceIdeal.Read.val_main_v10
    Cert.ReferenceIdeal.Read.val_main_c_0 Cert.ReferenceIdeal.Read.val_main_v9 Cert.ReferenceIdeal.Read.val_main_v8
    Cert.ReferenceIdeal.Read.val_main_c Cert.ReferenceIdeal.Read.val_main_v1 Cert.ReferenceIdeal.Read.val_main_v0
  rfl

variable (m : (ℓ : Loc Cert.KernelIdeal.nD Cert.KernelIdeal.τ Cert.KernelIdeal.sig) → Buf (Elt Ideal) ℓ)

/-- The reference's composed result of the kernel's launch contents is what the kernel's last call leaves. -/
theorem result_same (c : Dev Cert.KernelIdeal.nD) :
    Cert.ReferenceIdeal.Stages.pooled (features m c) (edges m c) (weights1 m c) (bias1 m c) (weights2 m c) (bias2 m c) (weightsOut m c) (biasOut m c)
      = result m c := by
  unfold Cert.ReferenceIdeal.Stages.pooled result pooled4 hidden4 pooled3 hidden3 pooled2 hidden2 pooled1 hidden1
  simp only [neighbour_same]

/-- The precondition puts every source index between -50000 and 49999. -/
theorem admitted (hpre : Cert.Pre_KernelIdeal m) : Admitted m := fun c e =>
  Cert.Pre_finite_inputs.Admitted.sources_in_range (F := Ideal) _ _ _ _ _ _ _ _ (hpre c) e

/-- Both idealized programs run, from memories agreeing on the arguments, to the same result. -/
theorem algebraic : Cert.algebraic_KernelIdeal_ReferenceIdeal := by
  intro m ρ m' ρ' hpre hagree
  have hs := admitted m hpre
  refine ⟨fun c => result m c, ?_, ?_⟩
  · exact (θ_run Cert.KernelIdeal.defs _ _).mono (fun r h c => ⟨(h c).1.trans (layer_out4 m ρ hs c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq, Cert.ReferenceIdeal.Stages.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    exact result_same m c

end Cert.Agreement

end
-- ==== Proof.lean ====
/-
  The five conjuncts. The word-level kernel and the idealized kernel run, terminate and keep their arguments: their
  generated frames. The reference runs and keeps its arguments: its generated run with the result dropped. The
  idealization rewrote nothing, so it preserves the kernel trivially. The two idealized programs end with equal results:
  five linear layers, four neighbour sums and two positive parts, the same functions on both sides wherever every source
  index of the edge list lies between -50000 and 49999, which the precondition says.
-/
import proofs.«422275_j50749333569685_1_alg».proof.Defs
import proofs.«422275_j50749333569685_1_alg».proof.Proof.Gen.Kernel
import proofs.«422275_j50749333569685_1_alg».proof.Proof.Gen.Kernel.Skeleton
import proofs.«422275_j50749333569685_1_alg».proof.Proof.Gen.Kernel.Launch
import proofs.«422275_j50749333569685_1_alg».proof.Proof.Gen.Kernel.Points
import proofs.«422275_j50749333569685_1_alg».proof.Proof.Gen.Kernel.Frame
import proofs.«422275_j50749333569685_1_alg».proof.Proof.Gen.KernelIdeal
import proofs.«422275_j50749333569685_1_alg».proof.Proof.Gen.KernelIdeal.Skeleton
import proofs.«422275_j50749333569685_1_alg».proof.Proof.Gen.KernelIdeal.Launch
import proofs.«422275_j50749333569685_1_alg».proof.Proof.Gen.KernelIdeal.Points
import proofs.«422275_j50749333569685_1_alg».proof.Proof.Gen.KernelIdeal.Frame
import proofs.«422275_j50749333569685_1_alg».proof.Proof.Gen.ReferenceIdeal
import proofs.«422275_j50749333569685_1_alg».proof.Proof.Gen.ReferenceIdeal.Run
import proofs.«422275_j50749333569685_1_alg».proof.Proof.Gen.ReferenceIdeal.Read
import proofs.«422275_j50749333569685_1_alg».proof.Proof.Gen.Pre_finite_inputs
import proofs.«422275_j50749333569685_1_alg».proof.Proof.Agreement
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Agreement.algebraic⟩

end Cert.Proof

end
